-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x64 : Shape := ⟨2, ![2000000, 64]⟩
abbrev S64 : Shape := ⟨1, ![64]⟩
abbrev S16 : Shape := ⟨1, ![16]⟩
abbrev S_ : Shape := ⟨0, ![]⟩

class Facts : Prop where
  bcast_S_S2000000x64 : S_.BroadcastsInDim S2000000x64 (![] : Fin 0 → Fin S2000000x64.rank)
  reducesTo_S2000000x64_S_d0_1 : S2000000x64.ReducesTo [0, 1] S_
  h_S_ : 0 < S_.numel
  bcast_S_S64 : S_.BroadcastsInDim S64 (![] : Fin 0 → Fin S64.rank)
  reducesTo_S64_S_d0 : S64.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S2000000x64 .f32) (main_arg1 : FVec F S64 .f32) (main_arg2 : IVec S16 32) : IVec S_ 1 :=
  let main_v0 : FVec F S2000000x64 .f32 := Host.absf main_arg0
  let main_cst : FVec F S_ .f32 := constant S_ .f32 0x7F800000#32
  let main_v1 : FVec F S2000000x64 .f32 := broadcastInDim S2000000x64 ![] bcast_S_S2000000x64 main_cst
  let main_v2 : IVec S2000000x64 1 := cmpf .olt main_v0 main_v1
  let main_c : IVec S_ 1 := constantI S_ 1 1#1
  let main_v3 : IVec S_ 1 := (fun x v => Host.reduce IntOp.andi x v reducesTo_S2000000x64_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_c_2 : IVec S_ 32 := constantI S_ 32 0#32
  let main_v9 : IVec S16 32 := broadcastInDim S16 ![] bcast_S_S16 main_c_2
  let main_v10 : IVec S16 1 := cmpi .sge main_arg2 main_v9
  let main_c_3 : IVec S_ 1 := constantI S_ 1 1#1
  let main_v11 : IVec S_ 1 := (fun x v => Host.reduce IntOp.andi x v reducesTo_S16_S_d0 h_S_) main_v10 main_c_3
  let main_v12 : IVec S_ 1 := andi main_v8 main_v11
  let main_c_4 : IVec S_ 32 := constantI S_ 32 64#32
  let main_v13 : IVec S16 32 := broadcastInDim S16 ![] bcast_S_S16 main_c_4
  let main_v14 : IVec S16 1 := cmpi .slt main_arg2 main_v13
  let main_c_5 : IVec S_ 1 := constantI S_ 1 1#1
  let main_v15 : IVec S_ 1 := (fun x v => Host.reduce IntOp.andi x v reducesTo_S16_S_d0 h_S_) main_v14 main_c_5
  fn_part1 (F := F) main_v12 main_v15
-- ==== Kernel.lean ====
abbrev S2000000x64 : Shape := ⟨2, ![2000000, 64]⟩
abbrev S64 : Shape := ⟨1, ![64]⟩
abbrev S16 : Shape := ⟨1, ![16]⟩
abbrev S_ : Shape := ⟨0, ![]⟩
abbrev S16x1 : Shape := ⟨2, ![16, 1]⟩
abbrev S1x64 : Shape := ⟨2, ![1, 64]⟩
abbrev S16x64 : Shape := ⟨2, ![16, 64]⟩
abbrev S128 : Shape := ⟨1, ![128]⟩
abbrev S1x128 : Shape := ⟨2, ![1, 128]⟩
abbrev S1000000x128 : Shape := ⟨2, ![1000000, 128]⟩
abbrev S1000000 : Shape := ⟨1, ![1000000]⟩
abbrev S16384x128 : Shape := ⟨2, ![16384, 128]⟩
abbrev S16384 : Shape := ⟨1, ![16384]⟩
abbrev S1000000x1 : Shape := ⟨2, ![1000000, 1]⟩
abbrev S1000000x2 : Shape := ⟨2, ![1000000, 2]⟩
abbrev S2000000 : Shape := ⟨1, ![2000000]⟩

abbrev nBuf : Space → Nat
  | .hbm => 43
  | .vmem => 9
  | .smem => 0
  | _ => 0

abbrev bufTy : (tb : Table) → Fin (tcTables nBuf tb) → BufTy
  | .hbm, ⟨0, _⟩ => ⟨S2000000x64, .f32⟩
  | .hbm, ⟨1, _⟩ => ⟨S64, .f32⟩
  | .hbm, ⟨2, _⟩ => ⟨S16, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S64, .i32⟩
  | .hbm, ⟨12, _⟩ => ⟨S16x1, .i32⟩
  | .hbm, ⟨13, _⟩ => ⟨S1x64, .i32⟩
  | .hbm, ⟨14, _⟩ => ⟨S16x64, .i32⟩
  | .hbm, ⟨15, _⟩ => ⟨S16x64, .i32⟩
  | .hbm, ⟨16, _⟩ => ⟨S16x64, .i1⟩
  | .hbm, ⟨17, _⟩ => ⟨S16x64, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S128, .f32⟩
  | .hbm, ⟨23, _⟩ => ⟨S1x128, .f32⟩
  | .hbm, ⟨24, _⟩ => ⟨S128, .f32⟩
  | .hbm, ⟨25, _⟩ => ⟨S1x128, .f32⟩
  | .hbm, ⟨26, _⟩ => ⟨S128, .f32⟩
  | .hbm, ⟨27, _⟩ => ⟨S1x128, .f32⟩
  | .hbm, ⟨28, _⟩ => ⟨S1000000x128, .f32⟩
  | .hbm, ⟨29, _⟩ => ⟨S1000000, .i32⟩
  | .hbm, ⟨30, _⟩ => ⟨S1000000, .i32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S1000000, .i1⟩
  | .hbm, ⟨39, _⟩ => ⟨S1000000x1, .i1⟩
  | .hbm, ⟨40, _⟩ => ⟨S1000000x1, .i1⟩
  | .hbm, ⟨41, _⟩ => ⟨S1000000x2, .i1⟩
  | .hbm, ⟨42, _⟩ => ⟨S2000000, .i1⟩
  | .local _ .vmem, ⟨0, _⟩ => ⟨S16384x128, .f32⟩
  | .local _ .vmem, ⟨1, _⟩ => ⟨S16384x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S16384, .i32⟩
  | .local _ .vmem, ⟨6, _⟩ => ⟨S16384, .i32⟩
  | .local _ .vmem, ⟨7, _⟩ => ⟨S16384, .i32⟩
  | .local _ .vmem, ⟨8, _⟩ => ⟨S16384, .i32⟩
  | _, _ => ⟨S2000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16384 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16384 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S64_S1x64_1 : S64.BroadcastsInDim S1x64 (![1] : Fin 1 → Fin S1x64.rank)
  bcast_S16x1_S16x64_0_1 : S16x1.BroadcastsInDim S16x64 (![0, 1] : Fin 2 → Fin S16x64.rank)
  bcast_S1x64_S16x64_0_1 : S1x64.BroadcastsInDim S16x64 (![0, 1] : Fin 2 → Fin S16x64.rank)
  reducesTo_S16x64_S64_d0 : S16x64.ReducesTo [0] S64
  h_S_ : 0 < S_.numel
  bcast_S_S64 : S_.BroadcastsInDim S64 (![] : Fin 0 → Fin S64.rank)
  concatenates_S64_S64_S128_d0 : Shape.Concatenates [S64, S64] S128 0
  shapeCasts_S128_S1x128 : S128.ShapeCasts S1x128
  shapeCasts_S2000000x64_S1000000x128 : S2000000x64.ShapeCasts S1000000x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16384x128 : S1x128.Broadcasts S16384x128
  reduces_S16384x128_S16384 : S16384x128.Reduces [1] S16384
  inb_S16384_S16384_0 : ∀ a, (![0] : Fin 1 → Nat) a + S16384.size a ≤ S16384.size a
  h_S16384 : 0 < S16384.numel
  natLt_1_32 : 1 < 32
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  shapeCasts_S1000000x2_S2000000 : S1000000x2.ShapeCasts S2000000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16384x128.size a < S1000000x128.size a
  hwx0_0 : ∀ i : grid0.Coords, EltTy.bits .f32 = 32 ∨ (Rect.unit (s := S1000000x128) (fun a => cc0_transform_0 i a * S16384x128.size a) (fun a => (Pipeline.Clip.of (cc0_transform_0 i a) (S16384x128.size a) (S1000000x128.size a)).extent (S16384x128.size a)) fun a => Pipeline.Clip.inb (Pipeline.Clip.ok_of (hstart0_0 i a))).WholeWords (EltTy.packing .f32)
  hwxs0_0 : ∀ i : grid0.Coords, EltTy.bits .f32 = 32 ∨ (Rect.unit (s := S16384x128) (fun _ => 0) (fun a => (Pipeline.Clip.of (cc0_transform_0 i a) (S16384x128.size a) (S1000000x128.size a)).extent (S16384x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S16384.size a < S1000000.size a
  hwx0_4 : ∀ i : grid0.Coords, EltTy.bits .i32 = 32 ∨ (Rect.unit (s := S1000000) (fun a => cc0_transform_4 i a * S16384.size a) (fun a => (Pipeline.Clip.of (cc0_transform_4 i a) (S16384.size a) (S1000000.size a)).extent (S16384.size a)) fun a => Pipeline.Clip.inb (Pipeline.Clip.ok_of (hstart0_4 i a))).WholeWords (EltTy.packing .i32)
  hwxs0_4 : ∀ i : grid0.Coords, EltTy.bits .i32 = 32 ∨ (Rect.unit (s := S16384) (fun _ => 0) (fun a => (Pipeline.Clip.of (cc0_transform_4 i a) (S16384.size a) (S1000000.size a)).extent (S16384.size a)) fun a => (Nat.zero_add _).trans_le (Pipeline.Clip.extent_le (Pipeline.Clip.ok_of (hstart0_4 i a)))).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S16384.size a < S1000000.size a
  hwx0_5 : ∀ i : grid0.Coords, EltTy.bits .i32 = 32 ∨ (Rect.unit (s := S1000000) (fun a => cc0_transform_5 i a * S16384.size a) (fun a => (Pipeline.Clip.of (cc0_transform_5 i a) (S16384.size a) (S1000000.size a)).extent (S16384.size a)) fun a => Pipeline.Clip.inb (Pipeline.Clip.ok_of (hstart0_5 i a))).WholeWords (EltTy.packing .i32)
  hwxs0_5 : ∀ i : grid0.Coords, EltTy.bits .i32 = 32 ∨ (Rect.unit (s := S16384) (fun _ => 0) (fun a => (Pipeline.Clip.of (cc0_transform_5 i a) (S16384.size a) (S1000000.size a)).extent (S16384.size a)) fun a => (Nat.zero_add _).trans_le (Pipeline.Clip.extent_le (Pipeline.Clip.ok_of (hstart0_5 i a)))).WholeWords (EltTy.packing .i32)

variable [Facts₀]

abbrev win0_0 : Pipeline.Window sig grid0 :=
  Pipeline.Window.ofSpecClip (Memref.whole main_v16) S16384x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v15) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v17_0) S16384.size cc0_transform_4 reads0_4 true false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v17_1) S16384.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2000000x64 : Shape := ⟨2, ![2000000, 64]⟩
abbrev S64 : Shape := ⟨1, ![64]⟩
abbrev S16 : Shape := ⟨1, ![16]⟩
abbrev S1x64 : Shape := ⟨2, ![1, 64]⟩
abbrev S_ : Shape := ⟨0, ![]⟩
abbrev S16x1 : Shape := ⟨2, ![16, 1]⟩
abbrev S1 : Shape := ⟨1, ![1]⟩
abbrev S1x1 : Shape := ⟨2, ![1, 1]⟩
abbrev S2000000x16 : Shape := ⟨2, ![2000000, 16]⟩
abbrev S2000000 : Shape := ⟨1, ![2000000]⟩

abbrev nBuf : Space → Nat
  | .hbm => 31
  | .vmem => 0
  | .smem => 0
  | _ => 0

abbrev bufTy : (tb : Table) → Fin (tcTables nBuf tb) → BufTy
  | .hbm, ⟨0, _⟩ => ⟨S2000000x64, .f32⟩
  | .hbm, ⟨1, _⟩ => ⟨S64, .f32⟩
  | .hbm, ⟨2, _⟩ => ⟨S16, .i32⟩
  | .hbm, ⟨3, _⟩ => ⟨S1x64, .f32⟩
  | .hbm, ⟨4, _⟩ => ⟨S2000000x64, .f32⟩
  | .hbm, ⟨5, _⟩ => ⟨S2000000x64, .i1⟩
  | .hbm, ⟨6, _⟩ => ⟨S_, .i32⟩
  | .hbm, ⟨7, _⟩ => ⟨S16, .i32⟩
  | .hbm, ⟨8, _⟩ => ⟨S16, .i1⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S16, .i32⟩
  | .hbm, ⟨13, _⟩ => ⟨S16x1, .i32⟩
  | .hbm, ⟨14, _⟩ => ⟨S1, .i32⟩
  | .hbm, ⟨15, _⟩ => ⟨S_, .i32⟩
  | .hbm, ⟨16, _⟩ => ⟨S16x1, .i32⟩
  | .hbm, ⟨17, _⟩ => ⟨S16x1, .i1⟩
  | .hbm, ⟨18, _⟩ => ⟨S1x1, .i32⟩
  | .hbm, ⟨19, _⟩ => ⟨S16x1, .i32⟩
  | .hbm, ⟨20, _⟩ => ⟨S16x1, .i1⟩
  | .hbm, ⟨21, _⟩ => ⟨S16x1, .i1⟩
  | .hbm, ⟨22, _⟩ => ⟨S_, .i1⟩
  | .hbm, ⟨23, _⟩ => ⟨S16, .i1⟩
  | .hbm, ⟨24, _⟩ => ⟨S2000000x16, .i1⟩
  | .hbm, ⟨25, _⟩ => ⟨S2000000x16, .i1⟩
  | .hbm, ⟨26, _⟩ => ⟨S_, .i1⟩
  | .hbm, ⟨27, _⟩ => ⟨S2000000x16, .i1⟩
  | .hbm, ⟨28, _⟩ => ⟨S2000000x16, .i1⟩
  | .hbm, ⟨29, _⟩ => ⟨S_, .i1⟩
  | .hbm, ⟨30, _⟩ => ⟨S2000000, .i1⟩
  | _, _ => ⟨S2000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_c_4 : Ref sig .tc := ⟨.hbm, 26, rfl⟩
abbrev main_call0_v15 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S16 : S_.BroadcastsInDim S16 (![] : Fin 0 → Fin S16.rank)
  bcast_S16_S16x1_0 : S16.BroadcastsInDim S16x1 (![0] : Fin 1 → Fin S16x1.rank)
  bcast_S_S16x1 : S_.BroadcastsInDim S16x1 (![] : Fin 0 → Fin S16x1.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  reducesTo_S16x1_S16_d1 : S16x1.ReducesTo [1] S16
  h_S_ : 0 < S_.numel
  bcast_S16_S2000000x16_1 : S16.BroadcastsInDim S2000000x16 (![1] : Fin 1 → Fin S2000000x16.rank)
  bcast_S_S2000000x16 : S_.BroadcastsInDim S2000000x16 (![] : Fin 0 → Fin S2000000x16.rank)
  reducesTo_S2000000x16_S2000000_d1 : S2000000x16.ReducesTo [1] S2000000
  gather_S2000000x64_S16x1_S2000000x16_0_1_n_n_1_1_20000001_wf : GatherDims.WF S2000000x64 S16x1 S2000000x16 [0] [1] [] [1] [] 1 ![2000000, 1]

variable [Facts₀]

def gather_S2000000x64_S16x1_S2000000x16_0_1_n_n_1_1_20000001 : GatherDims S2000000x64 S16x1 S2000000x16 where
  offsetDims := [0]
  collapsedSliceDims := [1]
  operandBatchingDims := []
  startIndicesBatchingDims := []
  startIndexMap := [1]
  indexVectorDim := 1
  sliceSizes := ![2000000, 1]
  wf := gather_S2000000x64_S16x1_S2000000x16_0_1_n_n_1_1_20000001_wf

class Facts : Prop extends Facts₀ where

variable [Facts]
-- ==== Proof.BitsBody.lean ====
/-
  The kernel body's triple, at any float instance: on whole staging buffers holding a block `x` of packed rows, the
  doubled thresholds `th` and the two weight rows `cA`, `cB`, the body reads the four, and leaves in its two result buffers
  the even-row and the odd-row match words computed from them; the four input buffers are left as they were. The result
  buffers may hold anything beforehand (the body reads them once, and drops what it read).
-/
import proofs.«422462_j31121333027528_3_alg».proof.Proof.Gen.Kernel.Skeleton
import proofs.«422462_j31121333027528_3_alg».proof.Proof.Gen.Kernel.Launch
import Idealize.ShloMosaic.Lib.Pipeline.Kit
import Idealize.ShloMosaic.Lib.Pipeline.FrameBody
import Idealize.ShloMosaic.Lib.Pipeline.Value
import Idealize.ShloMosaic.Lib.Tactic

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- A store through the whole-shape rectangle at zero offsets, alone, leaves its payload under any view of the shape. -/
theorem read_writes_unit_zero {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- A load through that rectangle reads the whole contents. -/
theorem readAt_unit_zero {Val : EltTy → Type} {sig : RefSig} {κ : Kind} {sp : Space} {S : Shape} {e : EltTy}
    (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

theorem sound_kernel (c : Dev nD) (E : Set ℕ) (i : grid0.Coords)
    (arg1 : Memref sig .tc .vmem S16384x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S16384 .i32) (harg5 : arg5.IsWhole) (arg6 : Memref sig .tc .vmem S16384 .i32) (harg6 : arg6.IsWhole)
    (x : Vec F S16384x128 .f32) (th cA cB : Vec F S1x128 .f32) (K : PUnit → sProp 𝕄) :
    iprop(owns (c : Thread nD τ) arg1 fullShare x ∗ owns (c : Thread nD τ) arg2 fullShare th
        ∗ owns (c : Thread nD τ) arg3 fullShare cA ∗ owns (c : Thread nD τ) arg4 fullShare cB
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare th
              ∗ owns (c : Thread nD τ) arg3 fullShare cA ∗ owns (c : Thread nD τ) arg4 fullShare cB
              ∗ owns (c : Thread nD τ) arg5 fullShare (k0_pay2 x th cA) ∗ owns (c : Thread nD τ) arg6 fullShare (k0_pay3 x th cB)) -∗ K ⟨⟩))
      ⊢ wp frame (wpE (defs₀ (F := F)) Variants.none c none) E
          (cc0__match_kernel i arg1 harg1 arg2 harg2 arg3 harg3 arg4 harg4 arg5 harg5 arg6 harg6) K := by
  -- every access is at offset zero with the buffer's own sizes: a load reads the whole contents, a store leaves its payload
  have hz1 : (![0] : Fin 1 → Nat) = fun _ => 0 := funext fun a => by fin_cases a; rfl
  have hz2 : (![0, 0] : Fin 2 → Nat) = fun _ => 0 := funext fun a => by fin_cases a <;> rfl
  simp only [cc0__match_kernel_eq_skeleton]; unfold cc0__match_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  have e1 := readAt_unit_zero (Val := Elt F) arg1.view f1 hz2 inb_S16384x128_S16384x128_0_0
  have e2 := readAt_unit_zero (Val := Elt F) arg2.view f2 hz2 inb_S1x128_S1x128_0_0
  have e3 := readAt_unit_zero (Val := Elt F) arg3.view f3 hz2 inb_S1x128_S1x128_0_0
  have e4 := readAt_unit_zero (Val := Elt F) arg4.view f4 hz2 inb_S1x128_S1x128_0_0
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_unit_zero (Val := Elt F) arg5.view f5 hz1]
  · iexists _; isplitr
    swap; · iexact H6
    ipureintro
    rw [read_writes_unit_zero (Val := Elt F) arg6.view f6 hz1]

end Cert.Kernel.Body

end
-- ==== Proof.BitsFrame.lean ====
/-
  The word-level kernel's frame. Nothing is claimed of what the result windows hold: at the word level a lane sum is a
  function of the whole block, the last block's rows past the array's end hold words nothing names, so no closed form of
  the result's last block exists there. The frame needs none: the body runs on any contents, the arguments are only read.
-/
import proofs.«422462_j31121333027528_3_alg».proof.Proof.BitsBody
import proofs.«422462_j31121333027528_3_alg».proof.Proof.Gen.Kernel.Points
import proofs.«422462_j31121333027528_3_alg».proof.Proof.Gen.Kernel.Frame
import Idealize.ShloMosaic.Lib.Pipeline.FrameSuffix

noncomputable section

namespace Cert.Kernel.BitsFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data of the one pipeline on core `c`: the arrays as the region finds them; of what the body
    leaves in a staging buffer nothing is said; the class invariant; nothing owed; full shares. -/
def rdat (c : Dev nD) : RDat τ (Elt F) Unit ℕ (UR sig nD τ) ℕ cfg0 c where
  A w := Gen.V m c (Pipeline.arrRef spec0 w)
  after := fun _ _ _ _ => True
  Φ _ := Pipeline.ΦA spec0 c
  q _ := fullShare
  owed _ := 0

/-- What the body is called with at point `t`, the windows one by one, at any contents `Y`, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5))

/-- and what it returns: every buffer at some contents. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X)
    ∗ (∃ X, ⌜(rdat m c).after 5 t (Y 5) X⌝ ∗ owns (c : Thread nD τ) (st0_5 t) fullShare X))

theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdat m c).Φ t.succ = (rdat m c).Φ t.castSucc from rfl,
    show (rdat m c).owesAt () t.succ = (rdat m c).owesAt () t.castSucc from rfl]
  iintro ⟨HΦ, Ho, H0, H1, H2, H3, H4, H5⟩
  iapply (Cert.Kernel.Body.sound_kernel c Set.univ (grid0.coords t) _ _ _ _ _ _ _ _ _ _ _ _ (Y 0) (Y 1) (Y 2) (Y 3) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]
  · iexists _; isplitr
    swap; · iexact H0
    ipureintro; trivial
  isplitl [H1]
  · iexists _; isplitr
    swap; · iexact H1
    ipureintro; trivial
  isplitl [H2]
  · iexists _; isplitr
    swap; · iexact H2
    ipureintro; trivial
  isplitl [H3]
  · iexists _; isplitr
    swap; · iexact H3
    ipureintro; trivial
  isplitl [H4]
  · iexists _; isplitr
    swap; · iexact H4
    ipureintro; trivial
  · iexists _; isplitr
    swap; · iexact H5
    ipureintro; trivial

/-- The library's body obligation, at every point and at any contents of the buffers. -/
theorem body_obligation (c : Dev nD) : (rdat (F := F) m c).BodyObligation (defs₀ (F := F)) Variants.none () Set.univ := fun t Y _ => by
  rw [Gen.bigSep_W0, Gen.bigSep_W0]
  exact sound_body m c t Y

/-- The buffers the twelve host operations after the region write: each writes its own result buffer. -/
def T : Finset (Ref sig .tc) :=
  {main_c_2, main_v18, main_v19, main_v20, main_c_3, main_v21, main_v22, main_v23, main_v24, main_v25, main_v26, main_v27}

theorem writes_in_T : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl
  all_goals
    intro b hb
    simp only [StableHlo.nullary_writes, StableHlo.unary_writes, StableHlo.binary_writes, StableHlo.reshape_writes,
      Finset.mem_singleton] at hb
    obtain rfl := Proc.devRef_injective (τ := τ) _ hb
    decide

/-- The run: every weakly fair execution of the program ends, and every buffer that is no array of the pipeline and is
    not written by the operations after the region holds what the region found in it. -/
theorem run_main : θ_run defs (onTc (τ := τ) (main (F := F))) (s₀ m ρ)
    (RDat.FramePostR cfg0 (rdat m) T (fun c b => Gen.V0 m c (Proc.devRef .tc b))) :=
  RDat.θ_run_frame_around_T cfgs (0 : Fin 1) Gen.launch0 defs₀ Variants.none (rdat m) T m ρ main
    (hbody := fun c => body_obligation m c) (hshare := fun c => (rdat m c).share_full fun _ => rfl)
    (howed := fun _ _ => rfl) (V₀ := Gen.V0 m) (opss := [Gen.hostOps1]) (hsub := Gen.sfx_sub) (hfresh := Gen.sfx_fresh)
    (hkeep := Gen.sfx_keeps) (hT := writes_in_T) (hmain := Gen.hmain m Variants.none) (hA := fun _ _ => rfl) (hΦ := fun _ _ => rfl)

/-- Every weakly fair execution of the program ends, faults nowhere, and leaves the three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Finset.mem_sdiff.mpr ⟨Pipeline.mem_restRefs_of main_arg0 (by decide) (by decide), by decide⟩)).trans (Gen.V_main_arg0 m c),
      ((h c).2 main_arg1 (Finset.mem_sdiff.mpr ⟨Pipeline.mem_restRefs_of main_arg1 (by decide) (by decide), by decide⟩)).trans (Gen.V_main_arg1 m c),
      ((h c).2 main_arg2 (Finset.mem_sdiff.mpr ⟨Pipeline.mem_restRefs_of main_arg2 (by decide) (by decide), by decide⟩)).trans (Gen.V_main_arg2 m c)⟩)
    (run_main m ρ)

end Cert.Kernel.BitsFrame

end
-- ==== Proof.KData.lean ====
/-
  The idealized kernel's proof data and its body's arithmetic read at a row.

  At a grid point the body holds a block `X` of 16384 packed rows by 128 lanes, the doubled thresholds `th` and a weight
  row `w` (one row of 128 lanes each). For each packed row `r` it adds up, over the 128 lanes, the weight of every lane whose
  entry is strictly above its threshold (`wsum`), and stores the word "that sum equals 16". Read at the ideal instance the
  sum is a finite sum of extended reals, so the word of row `r` depends on row `r` of `X` only: this is what lets the last
  grid point, whose block runs past the array's end, be described on the rows that are inside the array.
-/
import proofs.«422462_j31121333027528_3_alg».proof.Proof.Gen.KernelIdeal.Skeleton
import proofs.«422462_j31121333027528_3_alg».proof.Proof.Gen.KernelIdeal.Points
import proofs.«422462_j31121333027528_3_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Data

open Cert.KernelIdeal Cert.KernelIdeal.Gen
open Idealize.ShloMosaic Idealize.ShloMosaic.TcCoe Idealize.ShloMosaic.ValueIdx
open Idealize.SL Idealize.SL.Sem
open Idealize.ShloMosaic.Rounds
open Idealize.ShloMosaic.Pipeline (Dat Cfg Window)

/-! ## The body's arithmetic at a row -/

/-- Row `r`'s weighted sum: over the 128 lanes, the weight of each lane whose entry is strictly above its threshold. -/
def wsum (X : FVec Ideal S16384x128 .f32) (th w : FVec Ideal S1x128 .f32) (r : Fin 16384) : EReal :=
  ∑ k : Fin 128, Scalar.select (FloatOps.cmpf .ogt (X (ix2 r k)) (th (ix2 (0 : Fin 1) k))) (w (ix2 (0 : Fin 1) k))
    (FloatOps.ofBits (F := Ideal) .f32 0x00000000#32)

/-- The word the body stores for row `r`: one exactly when the weighted sum is the number the literal `0x41800000` denotes
    (sixteen); a lane that is not above its threshold contributes the literal `0x00000000` (zero). -/
def word (X : FVec Ideal S16384x128 .f32) (th w : FVec Ideal S1x128 .f32) (r : Fin 16384) : BitVec 32 :=
  (FloatOps.cmpf .oeq (wsum X th w r) (FloatOps.ofBits (F := Ideal) .f32 0x41800000#32)).setWidth 32

/-- The row's word reads row `r` of the block only. -/
theorem word_congr {X X' : FVec Ideal S16384x128 .f32} (th w : FVec Ideal S1x128 .f32) (r : Fin 16384)
    (h : ∀ k : Fin 128, X (ix2 r k) = X' (ix2 r k)) : word X th w r = word X' th w r := by
  unfold word wsum
  simp only [h]

/-- A lane sum of a block at row `r` is the sum of the row's 128 entries. -/
theorem lane_sum (v : FVec Ideal S16384x128 .f32) (h : S16384x128.Reduces [1] S16384) (hφ : FKind.Formats .f32)
    (hacc : (0x00000000#32 : BitVec 32) = FKind.add.neutral .f32 hφ) (r : Fin 16384) :
    multiReduction (F := Ideal) .add [1] S16384 v 0x00000000#32 h hφ hacc (ix1 r) = ∑ k : Fin 128, v (ix2 r k) := by
  refine (Ideal.multiReduction_add_single v _ h hφ hacc (ix1 r)).trans ?_
  refine Finset.sum_congr rfl fun k _ => congrArg v ?_
  funext a
  match a with
  | ⟨0, _⟩ => exact Fin.ext rfl
  | ⟨1, _⟩ => exact Fin.ext rfl

/-- A row of 128 lanes broadcast over the block's rows, read at row `r`, lane `k`. -/
theorem row_bcast (v : FVec Ideal S1x128 .f32) (h1 h2 : S1x128.ShapeCasts S1x128) (hb : S1x128.Broadcasts S16384x128)
    (r : Fin 16384) (k : Fin 128) :
    broadcastTo S16384x128 (shapeCast S1x128 (shapeCast S1x128 v h1) h2) hb (ix2 r k) = v (ix2 (0 : Fin 1) k) := by
  rw [shapeCast_self, shapeCast_self]
  exact broadcastTo_1b_ab_apply v hb r k

theorem row_bcast1 (v : FVec Ideal S1x128 .f32) (h1 : S1x128.ShapeCasts S1x128) (hb : S1x128.Broadcasts S16384x128)
    (r : Fin 16384) (k : Fin 128) :
    broadcastTo S16384x128 (shapeCast S1x128 v h1) hb (ix2 r k) = v (ix2 (0 : Fin 1) k) := by
  rw [shapeCast_self]
  exact broadcastTo_1b_ab_apply v hb r k

/-- The comparison bits at row `r`, lane `k`. -/
theorem pay1_apply (X : FVec Ideal S16384x128 .f32) (th : FVec Ideal S1x128 .f32) (r : Fin 16384) (k : Fin 128) :
    k0_pay1 (F := Ideal) X th (ix2 r k) = FloatOps.cmpf .ogt (X (ix2 r k)) (th (ix2 (0 : Fin 1) k)) := by
  unfold k0_pay1
  rw [cmpf_apply, shapeCast_self, row_bcast1]

set_option maxRecDepth 1000000 in
/-- The even rows' stored words: at row `r` the row's word for the first weight row. -/
theorem pay2_apply (X : FVec Ideal S16384x128 .f32) (th cA : FVec Ideal S1x128 .f32) (r : Fin 16384) :
    k0_pay2 (F := Ideal) X th cA (ix1 r) = word X th cA r := by
  unfold k0_pay2 word wsum
  rewrite [extui_apply]
  rewrite [cmpf_apply, broadcast_apply]
  refine congrArg (fun s => (FloatOps.cmpf .oeq s _).setWidth 32) ?_
  refine (lane_sum _ _ _ _ r).trans ?_
  refine Finset.sum_congr rfl fun k _ => ?_
  rewrite [select_apply, pay1_apply, row_bcast, broadcast_apply]
  rfl

set_option maxRecDepth 1000000 in
/-- The odd rows' stored words: the same with the second weight row. -/
theorem pay3_apply (X : FVec Ideal S16384x128 .f32) (th cB : FVec Ideal S1x128 .f32) (r : Fin 16384) :
    k0_pay3 (F := Ideal) X th cB (ix1 r) = word X th cB r := by
  unfold k0_pay3 word wsum
  rewrite [extui_apply]
  rewrite [cmpf_apply, broadcast_apply]
  refine congrArg (fun s => (FloatOps.cmpf .oeq s _).setWidth 32) ?_
  refine (lane_sum _ _ _ _ r).trans ?_
  refine Finset.sum_congr rfl fun k _ => ?_
  rewrite [select_apply, pay1_apply, row_bcast, broadcast_apply]
  rfl

end Cert.KernelIdeal.Data

end
-- ==== Proof.KBody.lean ====
/-
  The kernel body's triple, at any float instance: on whole staging buffers holding a block `x` of packed rows, the
  doubled thresholds `th` and the two weight rows `cA`, `cB`, the body reads the four, and leaves in its two result buffers
  the even-row and the odd-row match words computed from them; the four input buffers are left as they were. The result
  buffers may hold anything beforehand (the body reads them once, and drops what it read).
-/
import proofs.«422462_j31121333027528_3_alg».proof.Proof.Gen.KernelIdeal.Skeleton
import proofs.«422462_j31121333027528_3_alg».proof.Proof.Gen.KernelIdeal.Launch
import Idealize.ShloMosaic.Lib.Pipeline.Kit
import Idealize.ShloMosaic.Lib.Pipeline.FrameBody
import Idealize.ShloMosaic.Lib.Pipeline.Value
import Idealize.ShloMosaic.Lib.Tactic

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- A store through the whole-shape rectangle at zero offsets, alone, leaves its payload under any view of the shape. -/
theorem read_writes_unit_zero {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- A load through that rectangle reads the whole contents. -/
theorem readAt_unit_zero {Val : EltTy → Type} {sig : RefSig} {κ : Kind} {sp : Space} {S : Shape} {e : EltTy}
    (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

theorem sound_kernel (c : Dev nD) (E : Set ℕ) (i : grid0.Coords)
    (arg1 : Memref sig .tc .vmem S16384x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S16384 .i32) (harg5 : arg5.IsWhole) (arg6 : Memref sig .tc .vmem S16384 .i32) (harg6 : arg6.IsWhole)
    (x : Vec F S16384x128 .f32) (th cA cB : Vec F S1x128 .f32) (K : PUnit → sProp 𝕄) :
    iprop(owns (c : Thread nD τ) arg1 fullShare x ∗ owns (c : Thread nD τ) arg2 fullShare th
        ∗ owns (c : Thread nD τ) arg3 fullShare cA ∗ owns (c : Thread nD τ) arg4 fullShare cB
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare th
              ∗ owns (c : Thread nD τ) arg3 fullShare cA ∗ owns (c : Thread nD τ) arg4 fullShare cB
              ∗ owns (c : Thread nD τ) arg5 fullShare (k0_pay2 x th cA) ∗ owns (c : Thread nD τ) arg6 fullShare (k0_pay3 x th cB)) -∗ K ⟨⟩))
      ⊢ wp frame (wpE (defs₀ (F := F)) Variants.none c none) E
          (cc0__match_kernel i arg1 harg1 arg2 harg2 arg3 harg3 arg4 harg4 arg5 harg5 arg6 harg6) K := by
  -- every access is at offset zero with the buffer's own sizes: a load reads the whole contents, a store leaves its payload
  have hz1 : (![0] : Fin 1 → Nat) = fun _ => 0 := funext fun a => by fin_cases a; rfl
  have hz2 : (![0, 0] : Fin 2 → Nat) = fun _ => 0 := funext fun a => by fin_cases a <;> rfl
  simp only [cc0__match_kernel_eq_skeleton]; unfold cc0__match_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  have e1 := readAt_unit_zero (Val := Elt F) arg1.view f1 hz2 inb_S16384x128_S16384x128_0_0
  have e2 := readAt_unit_zero (Val := Elt F) arg2.view f2 hz2 inb_S1x128_S1x128_0_0
  have e3 := readAt_unit_zero (Val := Elt F) arg3.view f3 hz2 inb_S1x128_S1x128_0_0
  have e4 := readAt_unit_zero (Val := Elt F) arg4.view f4 hz2 inb_S1x128_S1x128_0_0
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_unit_zero (Val := Elt F) arg5.view f5 hz1]
  · iexists _; isplitr
    swap; · iexact H6
    ipureintro
    rw [read_writes_unit_zero (Val := Elt F) arg6.view f6 hz1]

end Cert.KernelIdeal.Body

end
-- ==== Proof.KOblig.lean ====
/-
  The idealized kernel's run. The proof data name what each window's staging buffer holds after the body at each grid
  point: the three one-row operands stay as fetched; the block of packed rows stays as fetched on the rows inside the
  array; each result buffer holds the rows' words computed from the block with its rows past the array's end filled with
  zeros. Only the rows inside the array are claimed (the last point's block runs 15808 rows past the array's end, and
  those rows of the buffer hold words nothing names): a row's word reads its own row of the block only, so the words of
  the rows inside the array do not depend on what the tail rows hold.
-/
import proofs.«422462_j31121333027528_3_alg».proof.Proof.KData
import proofs.«422462_j31121333027528_3_alg».proof.Proof.KBody
import proofs.«422462_j31121333027528_3_alg».proof.Proof.Gen.KernelIdeal.Points
import proofs.«422462_j31121333027528_3_alg».proof.Proof.Gen.KernelIdeal.Frame
import Idealize.ShloMosaic.Lib.Pipeline.FrameSuffix
import Idealize.ShloMosaic.Lib.Pipeline.FrameBody
import Idealize.ShloMosaic.Lib.Tactic

set_option maxRecDepth 65536

noncomputable section

namespace Cert.KernelIdeal.Oblig

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Idealize.ShloMosaic.ValueIdx Cert.KernelIdeal.Data

local notation "𝕄" => MT nD τ sig Unit (Elt Ideal) ℕ (UR sig nD τ) ℕ

variable (m : (ℓ : Loc nD τ sig) → Buf (Elt Ideal) ℓ) (ρ : Dev nD → PrngReg)

/-! ## The proof data -/

/-- The block of packed rows at point `t` as fetched (its rows inside the array), filled out to 16384 rows with zeros. -/
def xfull (c : Dev nD) (t : Fin cfg0.N) : S16384x128.Idx → Elt Ideal .f32 :=
  win0_0.fill (grid0.coords t) (fun _ => FloatOps.ofBits (F := Ideal) .f32 0x00000000#32) (iblk m c 0 t)

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => iblk m c 3 t
    | ⟨4, _⟩ => k0_pay2 (F := Ideal) (xfull m c t) (iblk m c 1 t) (iblk m c 2 t)
    | ⟨5, _⟩ => k0_pay3 (F := Ideal) (xfull m c t) (iblk m c 1 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = k0_pay2 (F := Ideal) (xfull m c t) (iblk m c 1 t) (iblk m c 2 t) := by dsimp only [dats]
theorem after0_5 (c : Dev nD) (t : Fin cfg0.N) :
    (dats m 0 c).after 5 t = k0_pay3 (F := Ideal) (xfull m c t) (iblk m c 1 t) (iblk m c 3 t) := by dsimp only [dats]

/-- The block of packed rows is fetched at every point: the body finds the rows inside the array, and `d` past them. -/
theorem before0_0 (c : Dev nD) (t : Fin cfg0.N) (d) :
    (dats m 0 c).before 0 t d = win0_0.fill (grid0.coords t) d (iblk m c 0 t) := by
  unfold Dat.before; rw [if_pos (fetch0_0 t)]; rfl
/-- The three one-row operands are fetched once and found again at every later point. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## Rows inside the array -/

/-- At every point the two result windows are cut to as many rows as the block of packed rows, whose 128 lanes are
    never cut. -/
theorem cuts_agree : ∀ t : Fin cfg0.N,
    win0_4.xsize (grid0.coords t) ⟨0, by decide⟩ = win0_0.xsize (grid0.coords t) ⟨0, by decide⟩
    ∧ win0_5.xsize (grid0.coords t) ⟨0, by decide⟩ = win0_0.xsize (grid0.coords t) ⟨0, by decide⟩
    ∧ win0_0.xsize (grid0.coords t) ⟨1, by decide⟩ = 128 :=
  (by decide +kernel : ∀ t : Fin grid0.N, _)

/-- On a row inside the array, a block filled out one way or another is the same. -/
theorem fill_row_eq (c : Dev nD) (t : Fin cfg0.N) (d d' : S16384x128.Idx → Elt Ideal .f32) (r : Fin 16384)
    (hr : r.val < win0_0.xsize (grid0.coords t) ⟨0, by decide⟩) (k : Fin 128) :
    win0_0.fill (grid0.coords t) d (iblk m c 0 t) (ix2 r k) = win0_0.fill (grid0.coords t) d' (iblk m c 0 t) (ix2 r k) := by
  have hm : win0_0.moved (grid0.coords t) (ix2 r k) = true :=
    (win0_0.moved_iff _ _).mpr fun a => by
      match a with
      | ⟨0, _⟩ => exact hr
      | ⟨1, _⟩ => rw [(cuts_agree t).2.2]; exact k.isLt
  unfold Pipeline.Window.fill
  rw [dif_pos hm, dif_pos hm]

/-- So the even rows' words of the block as found agree, on the rows the write-back moves, with those of the block
    filled out with zeros. -/
theorem cut_pay2 (c : Dev nD) (t : Fin cfg0.N) (d : S16384x128.Idx → Elt Ideal .f32) (T W : FVec Ideal S1x128 .f32) :
    win0_4.cut (grid0.coords t) (k0_pay2 (F := Ideal) (win0_0.fill (grid0.coords t) d (iblk m c 0 t)) T W)
      = win0_4.cut (grid0.coords t) (k0_pay2 (F := Ideal) (xfull m c t) T W) := by
  funext y
  show k0_pay2 (F := Ideal) _ T W (win0_4.xinj (grid0.coords t) y) = k0_pay2 (F := Ideal) _ T W (win0_4.xinj (grid0.coords t) y)
  have hy : (win0_4.xinj (grid0.coords t) y) = ix1 (⟨(y ⟨0, Nat.zero_lt_one⟩).val, Nat.lt_of_lt_of_le (y ⟨0, Nat.zero_lt_one⟩).isLt (win0_4.xsize_le _ _)⟩ : Fin 16384) := by
    funext a; match a with | ⟨0, _⟩ => rfl
  rw [hy, pay2_apply, pay2_apply]
  refine word_congr T W _ fun k => ?_
  exact fill_row_eq m c t _ _ _ (by rw [← (cuts_agree t).1]; exact (y ⟨0, Nat.zero_lt_one⟩).isLt) k

theorem cut_pay3 (c : Dev nD) (t : Fin cfg0.N) (d : S16384x128.Idx → Elt Ideal .f32) (T W : FVec Ideal S1x128 .f32) :
    win0_5.cut (grid0.coords t) (k0_pay3 (F := Ideal) (win0_0.fill (grid0.coords t) d (iblk m c 0 t)) T W)
      = win0_5.cut (grid0.coords t) (k0_pay3 (F := Ideal) (xfull m c t) T W) := by
  funext y
  show k0_pay3 (F := Ideal) _ T W (win0_5.xinj (grid0.coords t) y) = k0_pay3 (F := Ideal) _ T W (win0_5.xinj (grid0.coords t) y)
  have hy : (win0_5.xinj (grid0.coords t) y) = ix1 (⟨(y ⟨0, Nat.zero_lt_one⟩).val, Nat.lt_of_lt_of_le (y ⟨0, Nat.zero_lt_one⟩).isLt (win0_5.xsize_le _ _)⟩ : Fin 16384) := by
    funext a; match a with | ⟨0, _⟩ => rfl
  rw [hy, pay3_apply, pay3_apply]
  refine word_congr T W _ fun k => ?_
  exact fill_row_eq m c t _ _ _ (by rw [← (cuts_agree t).2.1]; exact (y ⟨0, Nat.zero_lt_one⟩).isLt) k

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the three clipped windows stated on the rows inside the array. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare (win0_4.fill (grid0.coords t) d (win0_4.cut (grid0.coords t) ((dats m 0 c).after 4 t))))
    ∗ (∃ d, owns (c : Thread nD τ) (st0_5 t) fullShare (win0_5.fill (grid0.coords t) d (win0_5.cut (grid0.coords t) ((dats m 0 c).after 5 t)))))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (Cert.KernelIdeal.Body.sound_kernel (F := Ideal) c Set.univ (grid0.coords t) _ _ _ _ _ _ _ _ _ _ _ _
    (win0_0.fill (grid0.coords t) d0 (iblk m c 0 t)) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]
  · iexists d0
    rw [show win0_0.cut (grid0.coords t) (xfull m c t) = iblk m c 0 t from win0_0.cut_fill _ _ _]
    iexact H0
  isplitl [H1]; · iexact H1
  isplitl [H2]; · iexact H2
  isplitl [H3]; · iexact H3
  isplitl [H4]
  · iexists (k0_pay2 (F := Ideal) (win0_0.fill (grid0.coords t) d0 (iblk m c 0 t)) (iblk m c 1 t) (iblk m c 2 t))
    rw [← cut_pay2 m c t d0, win0_4.fill_cut]
    iexact H4
  · iexists (k0_pay3 (F := Ideal) (win0_0.fill (grid0.coords t) d0 (iblk m c 0 t)) (iblk m c 1 t) (iblk m c 3 t))
    rw [← cut_pay3 m c t d0, win0_5.fill_cut]
    iexact H5

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of the program ends; every array of the pipeline then holds what the proof data compute,
    and every other buffer what the host operations after the region make of those. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The idealized kernel's frame: it ends, faults nowhere, and leaves its three arguments as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Oblig

end
-- ==== Proof.KBlocks.lean ====
/-
  From blocks to arrays. Grid point `t` writes back rows `16384·t … ` of each result array (the last point only the 576
  rows inside the array). Row `i` of a result array is therefore written by point `i / 16384`, as row `i % 16384` of that
  point's block of words: the two result arrays after the run are these whole-array functions.
-/
import proofs.«422462_j31121333027528_3_alg».proof.Proof.KOblig
import Idealize.ShloMosaic.Lib.Pipeline.Value

set_option maxRecDepth 65536

noncomputable section

namespace Cert.KernelIdeal.Blocks

open Cert.KernelIdeal Cert.KernelIdeal.Gen Cert.KernelIdeal.Data Cert.KernelIdeal.Oblig
open Idealize.ShloMosaic Idealize.ShloMosaic.TcCoe Idealize.ShloMosaic.ValueIdx Idealize.SL.Sem
open Idealize.ShloMosaic.Rounds
open Idealize.ShloMosaic.Pipeline (Dat Cfg Window)

variable (m : (ℓ : Loc nD τ sig) → Buf (Elt Ideal) ℓ)

/-- The grid point that writes row `i` of a result array. -/
def pt (i : Fin 1000000) : Fin cfg0.N := ⟨i.val / 16384, by have := i.isLt; rw [show cfg0.N = 62 from N_0]; omega⟩

/-- Row `i`'s place in that point's block. -/
def rowIn (i : Fin 1000000) : Fin 16384 := ⟨i.val % 16384, Nat.mod_lt _ (by decide)⟩

/-- The even result array, row by row. -/
def evenArr (c : Dev nD) : S1000000.Idx → BitVec 32 := fun i =>
  k0_pay2 (F := Ideal) (xfull m c (pt ⟨(i ⟨0, Nat.zero_lt_one⟩).val, (i ⟨0, Nat.zero_lt_one⟩).isLt⟩)) (iblk m c 1 (pt ⟨(i ⟨0, Nat.zero_lt_one⟩).val, (i ⟨0, Nat.zero_lt_one⟩).isLt⟩))
    (iblk m c 2 (pt ⟨(i ⟨0, Nat.zero_lt_one⟩).val, (i ⟨0, Nat.zero_lt_one⟩).isLt⟩)) (ix1 (rowIn ⟨(i ⟨0, Nat.zero_lt_one⟩).val, (i ⟨0, Nat.zero_lt_one⟩).isLt⟩))

/-- The odd result array, row by row. -/
def oddArr (c : Dev nD) : S1000000.Idx → BitVec 32 := fun i =>
  k0_pay3 (F := Ideal) (xfull m c (pt ⟨(i ⟨0, Nat.zero_lt_one⟩).val, (i ⟨0, Nat.zero_lt_one⟩).isLt⟩)) (iblk m c 1 (pt ⟨(i ⟨0, Nat.zero_lt_one⟩).val, (i ⟨0, Nat.zero_lt_one⟩).isLt⟩))
    (iblk m c 3 (pt ⟨(i ⟨0, Nat.zero_lt_one⟩).val, (i ⟨0, Nat.zero_lt_one⟩).isLt⟩)) (ix1 (rowIn ⟨(i ⟨0, Nat.zero_lt_one⟩).val, (i ⟨0, Nat.zero_lt_one⟩).isLt⟩))

/-- Block index and cut of the even result window at a point: point `t` holds rows `16384·t …`, as many as are inside
    the array. -/
theorem index_even : ∀ t : Fin cfg0.N, win0_4.index t ⟨0, by decide⟩ = t.val :=
  (by decide +kernel : ∀ t : Fin grid0.N, win0_4.index t ⟨0, by decide⟩ = t.val)
theorem xsize_even : ∀ t : Fin cfg0.N, win0_4.xsize (grid0.coords t) ⟨0, by decide⟩ = min 16384 (1000000 - 16384 * t.val) :=
  (by decide +kernel : ∀ t : Fin grid0.N, win0_4.xsize (grid0.coords t) ⟨0, by decide⟩ = min 16384 (1000000 - 16384 * t.val))
/-- The same of the odd result window. -/
theorem index_odd : ∀ t : Fin cfg0.N, win0_5.index t ⟨0, by decide⟩ = t.val :=
  (by decide +kernel : ∀ t : Fin grid0.N, win0_5.index t ⟨0, by decide⟩ = t.val)
theorem xsize_odd : ∀ t : Fin cfg0.N, win0_5.xsize (grid0.coords t) ⟨0, by decide⟩ = min 16384 (1000000 - 16384 * t.val) :=
  (by decide +kernel : ∀ t : Fin grid0.N, win0_5.xsize (grid0.coords t) ⟨0, by decide⟩ = min 16384 (1000000 - 16384 * t.val))

/-- Row `16384·t + r` of the even result array is row `r` of point `t`'s block of words. -/
theorem evenArr_at (c : Dev nD) (t : Fin cfg0.N) (r : Fin 16384) (i : S1000000.Idx)
    (hi : (i ⟨0, Nat.zero_lt_one⟩).val = 16384 * t.val + r.val) :
    evenArr m c i = k0_pay2 (F := Ideal) (xfull m c t) (iblk m c 1 t) (iblk m c 2 t) (ix1 r) := by
  have hp : pt ⟨(i ⟨0, Nat.zero_lt_one⟩).val, (i ⟨0, Nat.zero_lt_one⟩).isLt⟩ = t := Fin.ext (by
    show (i ⟨0, Nat.zero_lt_one⟩).val / 16384 = t.val
    have := r.isLt; rw [hi]; omega)
  have hr : rowIn ⟨(i ⟨0, Nat.zero_lt_one⟩).val, (i ⟨0, Nat.zero_lt_one⟩).isLt⟩ = r := Fin.ext (by
    show (i ⟨0, Nat.zero_lt_one⟩).val % 16384 = r.val
    have := r.isLt; rw [hi]; omega)
  unfold evenArr
  rw [hp, hr]

theorem oddArr_at (c : Dev nD) (t : Fin cfg0.N) (r : Fin 16384) (i : S1000000.Idx)
    (hi : (i ⟨0, Nat.zero_lt_one⟩).val = 16384 * t.val + r.val) :
    oddArr m c i = k0_pay3 (F := Ideal) (xfull m c t) (iblk m c 1 t) (iblk m c 3 t) (ix1 r) := by
  have hp : pt ⟨(i ⟨0, Nat.zero_lt_one⟩).val, (i ⟨0, Nat.zero_lt_one⟩).isLt⟩ = t := Fin.ext (by
    show (i ⟨0, Nat.zero_lt_one⟩).val / 16384 = t.val
    have := r.isLt; rw [hi]; omega)
  have hr : rowIn ⟨(i ⟨0, Nat.zero_lt_one⟩).val, (i ⟨0, Nat.zero_lt_one⟩).isLt⟩ = r := Fin.ext (by
    show (i ⟨0, Nat.zero_lt_one⟩).val % 16384 = r.val
    have := r.isLt; rw [hi]; omega)
  unfold oddArr
  rw [hp, hr]

/-- What point `t` writes back of the even result window is its block of `evenArr`. -/
theorem flushed_even (c : Dev nD) (t : Fin cfg0.N) (hf : (cfg0.win 4).flush t = true) :
    (dats m 0 c).flushed 4 t = ((cfg0.win 4).blk t).view.read (Elt Ideal) (evenArr m c) := by
  funext y
  have hy : (y ⟨0, Nat.zero_lt_one⟩).val < 16384 := Nat.lt_of_lt_of_le (y ⟨0, Nat.zero_lt_one⟩).isLt (win0_4.xsize_le _ _)
  have hx : win0_4.xinj (grid0.coords t) y = ix1 (⟨(y ⟨0, Nat.zero_lt_one⟩).val, hy⟩ : Fin 16384) := by
    funext a; match a with | ⟨0, _⟩ => rfl
  rw [View.read_apply]
  show (cfg0.win 4).cut (grid0.coords t) ((dats m 0 c).after 4 t) y = evenArr m c ((win0_4.blk t).view.emb y)
  rw [after0_4]
  show k0_pay2 (F := Ideal) (xfull m c t) (iblk m c 1 t) (iblk m c 2 t) (win0_4.xinj (grid0.coords t) y) = _
  rw [hx]
  refine (evenArr_at m c t ⟨(y ⟨0, Nat.zero_lt_one⟩).val, hy⟩ _ ?_).symm
  show win0_4.index t ⟨0, by decide⟩ * 16384 + 1 * (y ⟨0, Nat.zero_lt_one⟩).val = 16384 * t.val + (y ⟨0, Nat.zero_lt_one⟩).val
  rw [index_even t]; omega

theorem flushed_odd (c : Dev nD) (t : Fin cfg0.N) (hf : (cfg0.win 5).flush t = true) :
    (dats m 0 c).flushed 5 t = ((cfg0.win 5).blk t).view.read (Elt Ideal) (oddArr m c) := by
  funext y
  have hy : (y ⟨0, Nat.zero_lt_one⟩).val < 16384 := Nat.lt_of_lt_of_le (y ⟨0, Nat.zero_lt_one⟩).isLt (win0_5.xsize_le _ _)
  have hx : win0_5.xinj (grid0.coords t) y = ix1 (⟨(y ⟨0, Nat.zero_lt_one⟩).val, hy⟩ : Fin 16384) := by
    funext a; match a with | ⟨0, _⟩ => rfl
  rw [View.read_apply]
  show (cfg0.win 5).cut (grid0.coords t) ((dats m 0 c).after 5 t) y = oddArr m c ((win0_5.blk t).view.emb y)
  rw [after0_5]
  show k0_pay3 (F := Ideal) (xfull m c t) (iblk m c 1 t) (iblk m c 3 t) (win0_5.xinj (grid0.coords t) y) = _
  rw [hx]
  refine (oddArr_at m c t ⟨(y ⟨0, Nat.zero_lt_one⟩).val, hy⟩ _ ?_).symm
  show win0_5.index t ⟨0, by decide⟩ * 16384 + 1 * (y ⟨0, Nat.zero_lt_one⟩).val = 16384 * t.val + (y ⟨0, Nat.zero_lt_one⟩).val
  rw [index_odd t]; omega

/-- Every row of the even result array is in the block of the point that writes it. -/
theorem cover_even (i : S1000000.Idx) :
    ∃ t : Fin cfg0.N, (cfg0.win 4).flush t = true ∧ i ∈ ((cfg0.win 4).blk t).view.set := by
  refine ⟨pt ⟨(i ⟨0, Nat.zero_lt_one⟩).val, (i ⟨0, Nat.zero_lt_one⟩).isLt⟩, flush0_4 _, ?_⟩
  show (i : ((View.whole main_v17_0).slice (win0_4.rect (pt ⟨(i ⟨0, Nat.zero_lt_one⟩).val, (i ⟨0, Nat.zero_lt_one⟩).isLt⟩))).ty.Idx)
    ∈ ((View.whole main_v17_0).slice (win0_4.rect (pt ⟨(i ⟨0, Nat.zero_lt_one⟩).val, (i ⟨0, Nat.zero_lt_one⟩).isLt⟩))).set
  rw [View.set_slice_whole, Rect.mem_set_unit]
  intro a
  have hi : (i ⟨0, Nat.zero_lt_one⟩).val < 1000000 := (i ⟨0, Nat.zero_lt_one⟩).isLt
  match a with
  | ⟨0, _⟩ =>
    show win0_4.index (pt ⟨(i ⟨0, Nat.zero_lt_one⟩).val, (i ⟨0, Nat.zero_lt_one⟩).isLt⟩) ⟨0, by decide⟩ * 16384 ≤ (i ⟨0, Nat.zero_lt_one⟩).val
      ∧ (i ⟨0, Nat.zero_lt_one⟩).val < win0_4.index (pt ⟨(i ⟨0, Nat.zero_lt_one⟩).val, (i ⟨0, Nat.zero_lt_one⟩).isLt⟩) ⟨0, by decide⟩ * 16384
          + win0_4.xsize (grid0.coords (pt ⟨(i ⟨0, Nat.zero_lt_one⟩).val, (i ⟨0, Nat.zero_lt_one⟩).isLt⟩)) ⟨0, by decide⟩
    rw [index_even, xsize_even]
    show (i ⟨0, Nat.zero_lt_one⟩).val / 16384 * 16384 ≤ (i ⟨0, Nat.zero_lt_one⟩).val
      ∧ (i ⟨0, Nat.zero_lt_one⟩).val < (i ⟨0, Nat.zero_lt_one⟩).val / 16384 * 16384 + min 16384 (1000000 - 16384 * ((i ⟨0, Nat.zero_lt_one⟩).val / 16384))
    omega

theorem cover_odd (i : S1000000.Idx) :
    ∃ t : Fin cfg0.N, (cfg0.win 5).flush t = true ∧ i ∈ ((cfg0.win 5).blk t).view.set := by
  refine ⟨pt ⟨(i ⟨0, Nat.zero_lt_one⟩).val, (i ⟨0, Nat.zero_lt_one⟩).isLt⟩, flush0_5 _, ?_⟩
  show (i : ((View.whole main_v17_1).slice (win0_5.rect (pt ⟨(i ⟨0, Nat.zero_lt_one⟩).val, (i ⟨0, Nat.zero_lt_one⟩).isLt⟩))).ty.Idx)
    ∈ ((View.whole main_v17_1).slice (win0_5.rect (pt ⟨(i ⟨0, Nat.zero_lt_one⟩).val, (i ⟨0, Nat.zero_lt_one⟩).isLt⟩))).set
  rw [View.set_slice_whole, Rect.mem_set_unit]
  intro a
  have hi : (i ⟨0, Nat.zero_lt_one⟩).val < 1000000 := (i ⟨0, Nat.zero_lt_one⟩).isLt
  match a with
  | ⟨0, _⟩ =>
    show win0_5.index (pt ⟨(i ⟨0, Nat.zero_lt_one⟩).val, (i ⟨0, Nat.zero_lt_one⟩).isLt⟩) ⟨0, by decide⟩ * 16384 ≤ (i ⟨0, Nat.zero_lt_one⟩).val
      ∧ (i ⟨0, Nat.zero_lt_one⟩).val < win0_5.index (pt ⟨(i ⟨0, Nat.zero_lt_one⟩).val, (i ⟨0, Nat.zero_lt_one⟩).isLt⟩) ⟨0, by decide⟩ * 16384
          + win0_5.xsize (grid0.coords (pt ⟨(i ⟨0, Nat.zero_lt_one⟩).val, (i ⟨0, Nat.zero_lt_one⟩).isLt⟩)) ⟨0, by decide⟩
    rw [index_odd, xsize_odd]
    show (i ⟨0, Nat.zero_lt_one⟩).val / 16384 * 16384 ≤ (i ⟨0, Nat.zero_lt_one⟩).val
      ∧ (i ⟨0, Nat.zero_lt_one⟩).val < (i ⟨0, Nat.zero_lt_one⟩).val / 16384 * 16384 + min 16384 (1000000 - 16384 * ((i ⟨0, Nat.zero_lt_one⟩).val / 16384))
    omega

/-- After the run the even result array holds `evenArr`. -/
theorem final_even (c : Dev nD) : ((dats m 0 c).arrAt 4 cfg0.N : S1000000.Idx → BitVec 32) = evenArr m c :=
  (dats m 0 c).arrAt_eq_of_cover 4 (evenArr m c) (flushed_even m c) cover_even

/-- After the run the odd result array holds `oddArr`. -/
theorem final_odd (c : Dev nD) : ((dats m 0 c).arrAt 5 cfg0.N : S1000000.Idx → BitVec 32) = oddArr m c :=
  (dats m 0 c).arrAt_eq_of_cover 5 (oddArr m c) (flushed_odd m c) cover_odd

end Cert.KernelIdeal.Blocks

end
-- ==== Proof.KReads.lean ====
/-
  The windows' blocks as entries of the arrays the region finds. Row `i` of the packed array lies in the block of grid
  point `i / 16384`, at row `i % 16384`, which is a row inside the array (so the zero filling past the array's end is not
  met); each of the three one-row windows has one block, the whole row.
-/
import proofs.«422462_j31121333027528_3_alg».proof.Proof.KBlocks

set_option maxRecDepth 65536

noncomputable section

namespace Cert.KernelIdeal.Reads

open Cert.KernelIdeal Cert.KernelIdeal.Gen Cert.KernelIdeal.Data Cert.KernelIdeal.Oblig Cert.KernelIdeal.Blocks
open Idealize.ShloMosaic Idealize.ShloMosaic.TcCoe Idealize.ShloMosaic.ValueIdx Idealize.SL.Sem
open Idealize.ShloMosaic.Rounds
open Idealize.ShloMosaic.Pipeline (Dat Cfg Window)

variable (m : (ℓ : Loc nD τ sig) → Buf (Elt Ideal) ℓ)

/-- The block of packed rows at point `t` starts at row `t` (counted in blocks), lane 0. -/
theorem index0 : ∀ t : Fin cfg0.N, win0_0.index t 0 = t.val ∧ win0_0.index t 1 = 0 :=
  (by decide +kernel : ∀ t : Fin grid0.N, win0_0.index t 0 = t.val ∧ win0_0.index t 1 = 0)

/-- Each one-row window's one block is block (0, 0) at every point. -/
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)

/-- The rows of point `t`'s block that lie inside the array: all 16384, or what is left of the 1,000,000 rows. -/
theorem rows0 : ∀ t : Fin cfg0.N, win0_0.xsize (grid0.coords t) ⟨0, Nat.zero_lt_two⟩ = min 16384 (1000000 - 16384 * t.val) :=
  (by decide +kernel : ∀ t : Fin grid0.N, win0_0.xsize (grid0.coords t) ⟨0, by decide⟩ = min 16384 (1000000 - 16384 * t.val))

/-- Row `i`'s place in its block is a row inside the array: the transfer at that point moves it. -/
theorem moved_row (i : Fin 1000000) (k : Fin 128) : win0_0.moved (grid0.coords (pt i)) (ix2 (rowIn i) k) = true :=
  (win0_0.moved_iff _ _).mpr fun a => by
    match a with
    | ⟨0, _⟩ =>
      show (rowIn i).val < win0_0.xsize (grid0.coords (pt i)) ⟨0, Nat.zero_lt_two⟩
      rw [rows0 (pt i)]
      show i.val % 16384 < min 16384 (1000000 - 16384 * (i.val / 16384))
      have := i.isLt
      omega
    | ⟨1, _⟩ =>
      show k.val < win0_0.xsize (grid0.coords (pt i)) ⟨1, Nat.one_lt_two⟩
      rw [(cuts_agree (pt i)).2.2]; exact k.isLt

/-- The block of packed rows that holds row `i`, at row `i`'s place, is row `i` of the packed array. -/
theorem xfull_apply (c : Dev nD) (i : Fin 1000000) (k : Fin 128) :
    xfull m c (pt i) (ix2 (rowIn i) k) = (V m c main_v16 : S1000000x128.Idx → EReal) (ix2 i k) := by
  have hi := index0 (pt i)
  unfold xfull Pipeline.Window.fill
  rw [dif_pos (moved_row i k)]
  -- Block `i / 16384` starts at array row `(i / 16384) · 16384`; its row `i % 16384` is array row `i`.
  unfold iblk
  rw [View.read_apply]
  show V m c main_v16 _ = V m c main_v16 _
  congr 1
  funext a
  apply Fin.ext
  match a with
  | ⟨0, _⟩ =>
    show win0_0.index (pt i) 0 * 16384 + 1 * (rowIn i).val = i.val
    rw [hi.1]
    show i.val / 16384 * 16384 + 1 * (i.val % 16384) = i.val
    omega
  | ⟨1, _⟩ => show win0_0.index (pt i) 1 * 128 + 1 * k.val = k.val; rw [hi.2]; omega

/-- The thresholds' window at any point is the doubled thresholds' row. -/
theorem iblk1_apply (c : Dev nD) (t : Fin cfg0.N) (k : Fin 128) :
    (iblk m c 1 t : S1x128.Idx → EReal) (ix2 (0 : Fin 1) k) = (V m c main_v15 : S1x128.Idx → EReal) (ix2 (0 : Fin 1) k) := by
  -- The window's one block starts at row 0, lane 0: its entry (0, k) is the array's entry (0, k).
  have hi := index1 t
  unfold iblk
  rw [View.read_apply]
  show V m c main_v15 _ = V m c main_v15 _
  congr 1
  funext a
  apply Fin.ext
  match a with
  | ⟨0, _⟩ => show win0_1.index t 0 * 1 + 1 * 0 = 0; rw [hi.1]
  | ⟨1, _⟩ => show win0_1.index t 1 * 128 + 1 * k.val = k.val; rw [hi.2]; omega

/-- The even rows' weights' window at any point is that row. -/
theorem iblk2_apply (c : Dev nD) (t : Fin cfg0.N) (k : Fin 128) :
    (iblk m c 2 t : S1x128.Idx → EReal) (ix2 (0 : Fin 1) k) = (V m c main_v11 : S1x128.Idx → EReal) (ix2 (0 : Fin 1) k) := by
  -- The window's one block starts at row 0, lane 0: its entry (0, k) is the array's entry (0, k).
  have hi := index2 t
  unfold iblk
  rw [View.read_apply]
  show V m c main_v11 _ = V m c main_v11 _
  congr 1
  funext a
  apply Fin.ext
  match a with
  | ⟨0, _⟩ => show win0_2.index t 0 * 1 + 1 * 0 = 0; rw [hi.1]
  | ⟨1, _⟩ => show win0_2.index t 1 * 128 + 1 * k.val = k.val; rw [hi.2]; omega

/-- The odd rows' weights' window at any point is that row. -/
theorem iblk3_apply (c : Dev nD) (t : Fin cfg0.N) (k : Fin 128) :
    (iblk m c 3 t : S1x128.Idx → EReal) (ix2 (0 : Fin 1) k) = (V m c main_v13 : S1x128.Idx → EReal) (ix2 (0 : Fin 1) k) := by
  -- The window's one block starts at row 0, lane 0: its entry (0, k) is the array's entry (0, k).
  have hi := index3 t
  unfold iblk
  rw [View.read_apply]
  show V m c main_v13 _ = V m c main_v13 _
  congr 1
  funext a
  apply Fin.ext
  match a with
  | ⟨0, _⟩ => show win0_3.index t 0 * 1 + 1 * 0 = 0; rw [hi.1]
  | ⟨1, _⟩ => show win0_3.index t 1 * 128 + 1 * k.val = k.val; rw [hi.2]; omega

end Cert.KernelIdeal.Reads

end
-- ==== Proof.KTail.lean ====
/-
  The host operations after the region, read at an index (at the ideal instance): the two result arrays of 1,000,000
  words are turned into bits ("the word is not zero"), laid side by side as two columns, and read row-major as one vector
  of 2,000,000 bits: bit `2r` is the even array's row `r`, bit `2r + 1` the odd array's.
-/
import proofs.«422462_j31121333027528_3_alg».proof.Proof.Gen.KernelIdeal.Frame
import Idealize.ShloMosaic.Lib.ValueIdx
import Idealize.ShloMosaic.Lib.ValueLayout
import Idealize.ShloMosaic.Lib.Pipeline.Value
import Idealize.ShloMosaic.Lib.Pipeline.FrameSuffix
import Idealize.ShloMosaic.Lib.StableHlo.Run
import Idealize.ShloMosaic.Lib.StableHlo.Predicate

noncomputable section

namespace Cert.KernelIdeal.Tail

open Cert.KernelIdeal Cert.KernelIdeal.Gen
open Idealize.ShloMosaic Idealize.ShloMosaic.TcCoe Idealize.ShloMosaic.ValueIdx Idealize.SL.Sem
open Idealize.ShloMosaic.Rounds
open Idealize.ShloMosaic.Pipeline (Dat)

variable (m : (ℓ : Loc nD τ sig) → Buf (Elt Ideal) ℓ)

/-- A vector of 1,000,000 words as bits: "the word is not zero". -/
abbrev bits (X : IVec S1000000 32) : IVec S1000000 1 :=
  id (cmpi .ne X (broadcastInDim S1000000 ![] bcast_S_S1000000 (constantI S_ 32 0#32)))

/-- A vector of 1,000,000 bits as one column. -/
abbrev column (v : IVec S1000000 1) : IVec S1000000x1 1 :=
  broadcastInDim S1000000x1 ![0] bcast_S1000000_S1000000x1_0 v

/-- The tail of the program as one function of the two result arrays: each array as bits, the two laid side by side as
    the columns of a 1,000,000 by 2 rectangle, and that rectangle read row-major as one vector. -/
abbrev tail (E O : IVec S1000000 32) : IVec S2000000 1 :=
  shapeCast S2000000 (concatenate S1000000x2 1 [⟨S1000000x1, column (bits E)⟩, ⟨S1000000x1, column (bits O)⟩]
    concatenates_S1000000x1_S1000000x1_S1000000x2_d1) shapeCasts_S1000000x2_S2000000

/-- A bit of the word-to-bit vector is the comparison of that word with zero. -/
theorem bits_apply (X : IVec S1000000 32) (r : Fin 1000000) : bits X (ix1 r) = IntOp.cmpi .ne (X (ix1 r)) 0#32 := rfl

/-- Row `r` of a vector laid out as one column is the vector's entry `r`. -/
theorem column_apply (v : IVec S1000000 1) (r : Fin 1000000) : column v (ix2 r (0 : Fin 1)) = v (ix1 r) :=
  broadcastInDim_apply _ bcast_S1000000_S1000000x1_0 v (ix2 r (0 : Fin 1)) (ix1 r) (fun a => match a with | ⟨0, _⟩ => rfl)

/-- Position `2r` of the tail is the even array's row `r` as a bit: row `r`, column 0 of the rectangle. -/
theorem tail_even (E O : IVec S1000000 32) (r : Fin 1000000) :
    tail E O (ix1 ⟨2 * r.val, by have := r.isLt; omega⟩) = IntOp.cmpi .ne (E (ix1 r)) 0#32 := by
  show shapeCast S2000000 _ shapeCasts_S1000000x2_S2000000 _ = _
  rw [shapeCast_apply (s := S1000000x2) (t := S2000000) _ shapeCasts_S1000000x2_S2000000 _ (ix2 r (0 : Fin 2)) (by
    rw [Shape.rowMajor_val_two, Shape.rowMajor_val_one]
    show r.val * 2 + 0 = 2 * r.val
    omega)]
  rw [concatenate_pair_apply_left (t := S1000000x2) (s₁ := S1000000x1) (s₂ := S1000000x1) (1 : Fin 2) (column (bits E)) (column (bits O))
    concatenates_S1000000x1_S1000000x1_S1000000x2_d1 (ix2 r (0 : Fin 2)) rfl
    (ix2 r (0 : Fin 1)) (fun b => match b with | ⟨0, _⟩ => rfl | ⟨1, _⟩ => rfl)]
  rw [column_apply, bits_apply]

/-- Position `2r + 1` of the tail is the odd array's row `r` as a bit: row `r`, column 1 of the rectangle. -/
theorem tail_odd (E O : IVec S1000000 32) (r : Fin 1000000) :
    tail E O (ix1 ⟨2 * r.val + 1, by have := r.isLt; omega⟩) = IntOp.cmpi .ne (O (ix1 r)) 0#32 := by
  show shapeCast S2000000 _ shapeCasts_S1000000x2_S2000000 _ = _
  rw [shapeCast_apply (s := S1000000x2) (t := S2000000) _ shapeCasts_S1000000x2_S2000000 _ (ix2 r (1 : Fin 2)) (by
    rw [Shape.rowMajor_val_two, Shape.rowMajor_val_one]
    show r.val * 2 + 1 = 2 * r.val + 1
    omega)]
  rw [concatenate_pair_apply_right (t := S1000000x2) (s₁ := S1000000x1) (s₂ := S1000000x1) (1 : Fin 2) (column (bits E)) (column (bits O))
    concatenates_S1000000x1_S1000000x1_S1000000x2_d1 (ix2 r (1 : Fin 2)) rfl rfl
    (ix2 r (0 : Fin 1)) (fun b hb => match b with | ⟨0, _⟩ => rfl | ⟨1, _⟩ => absurd rfl hb) (by show 0 + 1 = 1; rfl)]
  rw [column_apply, bits_apply]

set_option maxHeartbeats 2000000 in
/-- The program's result as the operations after the region compose it: the tail of the two result arrays as the region
    leaves them. -/
theorem tail_term (dats : (p : Fin 1) → (c : Dev nD) → Dat τ (Elt Ideal) Unit ℕ (UR sig nD τ) ℕ (cfgs p) c) (c : Dev nD) :
    (Pipeline.afterTail₀ cfgs dats 0 (V0 m) [hostOps1] c main_v27 : S2000000.Idx → BitVec 1)
      = tail ((dats 0 c).arrAt 4 cfg0.N : S1000000.Idx → BitVec 32) ((dats 0 c).arrAt 5 cfg0.N : S1000000.Idx → BitVec 32) := by
  have e4 : Pipeline.withArrays (cfgs 0).spec c (V0 m c) (fun w => (dats 0 c).arrAt w (cfgs 0).N) (Proc.devRef .tc main_v17_0)
      = (dats 0 c).arrAt 4 (cfgs 0).N := Pipeline.withArrays_arr spec0 launch0.win.arr_inj c _ _ 4
  have e5 : Pipeline.withArrays (cfgs 0).spec c (V0 m c) (fun w => (dats 0 c).arrAt w (cfgs 0).N) (Proc.devRef .tc main_v17_1)
      = (dats 0 c).arrAt 5 (cfgs 0).N := Pipeline.withArrays_arr spec0 launch0.win.arr_inj c _ _ 5
  unfold Pipeline.afterTail₀
  simp only [List.flatten_cons, List.flatten_nil, List.append_nil]
  show StableHlo.after hostOps1 _ (Proc.devRef .tc main_v27) = _
  after_results
  rw [e4, e5]
  rfl

/-- Bit `2r` of the program's result is "row `r` of the even result array is not zero". -/
theorem result_even (dats : (p : Fin 1) → (c : Dev nD) → Dat τ (Elt Ideal) Unit ℕ (UR sig nD τ) ℕ (cfgs p) c) (c : Dev nD) (r : Fin 1000000) :
    (Pipeline.afterTail₀ cfgs dats 0 (V0 m) [hostOps1] c main_v27 : S2000000.Idx → BitVec 1)
        (ix1 ⟨2 * r.val, by have := r.isLt; omega⟩)
      = IntOp.cmpi .ne (((dats 0 c).arrAt 4 cfg0.N : S1000000.Idx → BitVec 32) (ix1 r)) 0#32 := by
  rw [tail_term]
  exact tail_even _ _ r

/-- Bit `2r + 1` of the program's result is "row `r` of the odd result array is not zero". -/
theorem result_odd (dats : (p : Fin 1) → (c : Dev nD) → Dat τ (Elt Ideal) Unit ℕ (UR sig nD τ) ℕ (cfgs p) c) (c : Dev nD) (r : Fin 1000000) :
    (Pipeline.afterTail₀ cfgs dats 0 (V0 m) [hostOps1] c main_v27 : S2000000.Idx → BitVec 1)
        (ix1 ⟨2 * r.val + 1, by have := r.isLt; omega⟩)
      = IntOp.cmpi .ne (((dats 0 c).arrAt 5 cfg0.N : S1000000.Idx → BitVec 32) (ix1 r)) 0#32 := by
  rw [tail_term]
  exact tail_odd _ _ r

end Cert.KernelIdeal.Tail

end
-- ==== Proof.Spec.lean ====
/-
  What both programs compute, as one function of the argument arrays.

  The arguments are a matrix `x` of 2,000,000 rows by 64 features, a vector `th` of 64 thresholds and a list `p` of 16
  feature numbers (the pattern). Row `i` MATCHES when, for every entry `j` of the pattern, feature `p j` of the row is
  strictly above its threshold. The result is the vector of the 2,000,000 match bits.

  The pattern's entries are 32-bit words read as signed integers; every statement below that reads an entry as a column
  assumes it lies in `[0, 64)` (`InRange`), and `col` reduces the word modulo 64 only so that it is a total function.
-/
import Idealize.ShloMosaic.PureOps.Ideal
import Idealize.ShloMosaic.Lib.ValueIdx

noncomputable section

namespace Cert.Spec

open Idealize.ShloMosaic Idealize.ShloMosaic.ValueIdx

/-- The matrix of rows by features. -/
abbrev SX : Shape := ⟨2, ![2000000, 64]⟩
/-- The thresholds, one per feature. -/
abbrev ST : Shape := ⟨1, ![64]⟩
/-- The pattern: sixteen feature numbers. -/
abbrev SP : Shape := ⟨1, ![16]⟩
/-- The result: one bit per row. -/
abbrev SR : Shape := ⟨1, ![2000000]⟩

/-- Every entry of the pattern, read as a signed integer, is a feature number: at least 0 and below 64. -/
def InRange (p : IVec SP 32) : Prop := ∀ j : Fin 16, 0 ≤ (p (ix1 j)).toInt ∧ (p (ix1 j)).toInt < 64

/-- The feature the pattern's entry `j` names (for an entry in range, the entry itself). -/
def col (p : IVec SP 32) (j : Fin 16) : Fin 64 := ⟨(p (ix1 j)).toNat % 64, Nat.mod_lt _ (by decide)⟩

/-- For an entry in range the word's unsigned value is already below 64: `col` is the entry. -/
theorem col_val {p : IVec SP 32} (hp : InRange p) (j : Fin 16) : (col p j).val = (p (ix1 j)).toNat := by
  have h := hp j
  have h1 : (p (ix1 j)).toInt = ((p (ix1 j)).toNat : Int) := by
    rw [BitVec.toInt_eq_toNat_cond]; split
    · rfl
    · next hge => exfalso; rw [BitVec.toInt_eq_toNat_cond, if_neg hge] at h; have := (p (ix1 j)).isLt; omega
  show (p (ix1 j)).toNat % 64 = _
  apply Nat.mod_eq_of_lt; omega

/-- Feature `l` of row `i` is strictly above its threshold. -/
def above (x : FVec Ideal SX .f32) (th : FVec Ideal ST .f32) (i : Fin 2000000) (l : Fin 64) : Prop :=
  th (ix1 l) < x (ix2 i l)

/-- How many entries of the pattern name feature `l`. -/
def count (p : IVec SP 32) (l : Fin 64) : ℕ := (Finset.univ.filter fun j : Fin 16 => col p j = l).card

open Classical in
/-- The match bits: row `i` matches when every feature the pattern names is above its threshold there. -/
def matchRows (x : FVec Ideal SX .f32) (th : FVec Ideal ST .f32) (p : IVec SP 32) : IVec SR 1 :=
  fun i => if ∀ j : Fin 16, above x th (i 0) (col p j) then 1#1 else 0#1

/-- The match bit of a row that matches is one. -/
theorem matchRows_of_all {x : FVec Ideal SX .f32} {th : FVec Ideal ST .f32} {p : IVec SP 32} {r : Fin 2000000}
    (h : ∀ j : Fin 16, above x th r (col p j)) : matchRows x th p (ix1 r) = 1#1 := by
  unfold matchRows; exact if_pos h

/-- The match bit of a row that does not match is zero. -/
theorem matchRows_of_not_all {x : FVec Ideal SX .f32} {th : FVec Ideal ST .f32} {p : IVec SP 32} {r : Fin 2000000}
    (h : ¬ ∀ j : Fin 16, above x th r (col p j)) : matchRows x th p (ix1 r) = 0#1 := by
  unfold matchRows; exact if_neg h

end Cert.Spec

end
-- ==== Proof.Weighted.lean ====
/-
  The arithmetic that joins the two programs. The kernel does not gather the pattern's columns: it weighs each
  feature's comparison bit by the number of pattern entries naming that feature and asks whether the weighted sum is 16.
-/
import proofs.«422462_j31121333027528_3_alg».proof.Proof.Spec
import Mathlib.Algebra.BigOperators.Fin
import Mathlib.Algebra.Order.BigOperators.Group.Finset

noncomputable section

open scoped BigOperators

namespace Cert.Weighted

open Idealize.ShloMosaic Idealize.ShloMosaic.ValueIdx Cert.Spec

/-- The sixteen entries of the pattern are spread over the 64 features: the multiplicities sum to 16. -/
theorem sum_count (p : IVec SP 32) : ∑ l : Fin 64, count p l = 16 := by
  -- Sort the sixteen entries by the feature they name: the fibres of `col p` partition `Fin 16`.
  have h := Finset.card_eq_sum_card_fiberwise (s := (Finset.univ : Finset (Fin 16)))
    (t := (Finset.univ : Finset (Fin 64))) (f := col p) (fun j _ => Finset.mem_univ _)
  unfold count
  rw [← h, Finset.card_univ, Fintype.card_fin]

/-- The embedding of the reals into the extended reals commutes with finite sums. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A feature has positive multiplicity exactly when some entry of the pattern names it. -/
theorem count_pos_col (p : IVec SP 32) (j : Fin 16) : 0 < count p (col p j) :=
  Finset.card_pos.mpr ⟨j, Finset.mem_filter.mpr ⟨Finset.mem_univ _, rfl⟩⟩

/-- A feature no entry names has multiplicity zero. -/
theorem count_eq_zero (p : IVec SP 32) (l : Fin 64) (h : ∀ j : Fin 16, col p j ≠ l) : count p l = 0 := by
  unfold count
  rw [Finset.card_eq_zero, Finset.filter_eq_empty_iff]
  intro j _ hj; exact h j hj

/-- The law among natural numbers: the weights of the hit features add up to 16 exactly when every named feature
    is hit. Each summand is at most the feature's multiplicity and the multiplicities sum to 16, so the totals agree
    only when the summands agree one by one, and a named feature has a positive multiplicity. -/
theorem nat_sum_eq_iff (p : IVec SP 32) (hit : Fin 64 → Prop) [DecidablePred hit] :
    (∑ l : Fin 64, (if hit l then count p l else 0)) = 16 ↔ ∀ j : Fin 16, hit (col p j) := by
  have key : (∑ l : Fin 64, (if hit l then count p l else 0)) = ∑ l : Fin 64, count p l
      ↔ ∀ l ∈ (Finset.univ : Finset (Fin 64)), (if hit l then count p l else 0) = count p l :=
    Finset.sum_eq_sum_iff_of_le (s := Finset.univ) (f := fun l => if hit l then count p l else 0) (g := count p)
      (fun l _ => by show (if hit l then count p l else 0) ≤ count p l; split_ifs <;> simp)
  rw [sum_count p] at key
  rw [key]
  constructor
  · intro h j
    by_contra hj
    have h1 := h (col p j) (Finset.mem_univ _)
    have h2 := count_pos_col p j
    simp only [if_neg hj] at h1
    omega
  · intro h l _
    split_ifs with hl
    · rfl
    · exact (count_eq_zero p l (fun j hj => hl (hj ▸ h j))).symm

/-- THE LAW. Weigh feature `l` by how many pattern entries name it and add up the weights of the features that are hit:
    the total is 16 exactly when every feature some entry names is hit. (Each weight is a natural number, the weights
    sum to 16, so a missed feature of positive weight leaves the total strictly below 16.) -/
theorem weighted_sum_eq_iff (p : IVec SP 32) (hit : Fin 64 → Prop) [DecidablePred hit] :
    (∑ l : Fin 64, (if hit l then ((count p l : ℝ) : EReal) else 0)) = ((16 : ℝ) : EReal) ↔ ∀ j : Fin 16, hit (col p j) := by
  -- Every summand is the image of a natural number, so the whole sum is, and the equation descends to ℕ.
  have h1 : ∀ l : Fin 64, (if hit l then ((count p l : ℝ) : EReal) else 0)
      = ((((if hit l then count p l else 0 : ℕ) : ℕ) : ℝ) : EReal) := by
    intro l; split_ifs
    · rfl
    · rw [Nat.cast_zero, EReal.coe_zero]
  rw [Finset.sum_congr rfl (fun l _ => h1 l), ← coe_sum, EReal.coe_eq_coe_iff, ← Nat.cast_sum,
    show (16 : ℝ) = ((16 : ℕ) : ℝ) by norm_num, Nat.cast_inj]
  exact nat_sum_eq_iff p hit

/-- A sum over 128 lanes whose upper 64 lanes are zero is the sum over the lower 64. -/
theorem sum_lower (f : Fin 128 → EReal) (hz : ∀ k : Fin 128, 64 ≤ k.val → f k = 0) :
    ∑ k : Fin 128, f k = ∑ l : Fin 64, f ⟨l.val, by have := l.isLt; omega⟩ := by
  -- 128 = 64 + 64: the sum splits into the lower and the upper half, and the upper half vanishes.
  have hs : ∑ k : Fin 128, f k = ∑ k : Fin (64 + 64), f k := rfl
  rw [hs, Fin.sum_univ_add,
    Finset.sum_eq_zero (s := Finset.univ) (f := fun i : Fin 64 => f (Fin.natAdd 64 i))
      (fun i _ => hz _ (by show 64 ≤ 64 + i.val; omega)), add_zero]
  rfl

/-- A sum over 128 lanes whose lower 64 lanes are zero is the sum over the upper 64. -/
theorem sum_upper (f : Fin 128 → EReal) (hz : ∀ k : Fin 128, k.val < 64 → f k = 0) :
    ∑ k : Fin 128, f k = ∑ l : Fin 64, f ⟨l.val + 64, by have := l.isLt; omega⟩ := by
  -- 128 = 64 + 64: the sum splits into the lower and the upper half, and the lower half vanishes.
  have hs : ∑ k : Fin 128, f k = ∑ k : Fin (64 + 64), f k := rfl
  rw [hs, Fin.sum_univ_add,
    Finset.sum_eq_zero (s := Finset.univ) (f := fun i : Fin 64 => f (Fin.castAdd 64 i))
      (fun i _ => hz _ (by show i.val < 64; exact i.isLt)), zero_add]
  refine Finset.sum_congr rfl (fun l _ => congrArg f (Fin.ext ?_))
  show 64 + l.val = l.val + 64
  omega

end Cert.Weighted

end
-- ==== Proof.KRow.lean ====
/-
  One packed row against the specification. A packed row of 128 lanes holds two consecutive rows of the matrix side by
  side. With the thresholds written twice and the weight row carrying the pattern's multiplicities in one half (zeros in
  the other), the row's stored word is the match bit of the matrix row lying in that half.
-/
import proofs.«422462_j31121333027528_3_alg».proof.Proof.KData
import proofs.«422462_j31121333027528_3_alg».proof.Proof.Spec
import proofs.«422462_j31121333027528_3_alg».proof.Proof.Weighted

noncomputable section

open scoped BigOperators

namespace Cert.KernelIdeal.Row

open Cert.KernelIdeal Cert.KernelIdeal.Data Cert.Spec
open Idealize.ShloMosaic Idealize.ShloMosaic.ValueIdx

/-- The literal the body compares the weighted sum with denotes sixteen. -/
theorem sixteen : (FloatOps.ofBits (F := Ideal) .f32 0x41800000#32) = ((16 : ℝ) : EReal) := by
  -- Sign 0, exponent field 131, fraction 0: the value is 2²³ · 2^(131 − 127 − 23) = 2⁴.
  rw [Ideal.ofBits_def]
  simp [Ideal.ofBits, Ideal.ieee, -EReal.coe_mul]; norm_num

/-- The literal a lane below its threshold contributes denotes zero. -/
theorem zero_lit : (FloatOps.ofBits (F := Ideal) .f32 0x00000000#32) = (0 : EReal) := by
  rw [Ideal.ofBits_def, Ideal.ofBits_zero_f32]

/-- A lane whose entry is strictly above its threshold contributes its weight. -/
theorem lane_hit {a t : Ideal .f32} (c : Ideal .f32) (h : t < a) :
    Scalar.select (FloatOps.cmpf (F := Ideal) .ogt a t) c (FloatOps.ofBits (F := Ideal) .f32 0x00000000#32) = c := by
  have e : FloatOps.cmpf (F := Ideal) .ogt a t = 1#1 := by
    rw [Ideal.cmpf_def]
    show BitVec.ofBool (decide (t < a)) = 1#1
    rw [decide_eq_true h]; rfl
  rw [e, select_one]

/-- A lane whose entry is not above its threshold contributes zero. -/
theorem lane_miss {a t : Ideal .f32} (c : Ideal .f32) (h : ¬ t < a) :
    Scalar.select (FloatOps.cmpf (F := Ideal) .ogt a t) c (FloatOps.ofBits (F := Ideal) .f32 0x00000000#32) = (0 : EReal) := by
  have e : FloatOps.cmpf (F := Ideal) .ogt a t = 0#1 := by
    rw [Ideal.cmpf_def]
    show BitVec.ofBool (decide (t < a)) = 0#1
    rw [decide_eq_false h]; rfl
  rw [e, select_zero, zero_lit]

/-- A lane of weight zero contributes zero whatever the comparison says. -/
theorem lane_zero (a t : Ideal .f32) :
    Scalar.select (FloatOps.cmpf (F := Ideal) .ogt a t) (0 : EReal) (FloatOps.ofBits (F := Ideal) .f32 0x00000000#32)
      = (0 : EReal) := by
  by_cases h : t < a
  · exact lane_hit _ h
  · exact lane_miss _ h

/-- The stored word, once the weighted sum is known to be the law's sum: it is the match bit. -/
theorem word_of_wsum (x : FVec Ideal SX .f32) (th : FVec Ideal ST .f32) (p : IVec SP 32)
    (X : FVec Ideal S16384x128 .f32) (T W : FVec Ideal S1x128 .f32) (r : Fin 16384) (i : Fin 2000000)
    [DecidablePred (above x th i)]
    (hs : wsum X T W r = ∑ l : Fin 64, (if above x th i l then ((count p l : ℝ) : EReal) else 0)) :
    word X T W r = (matchRows x th p (ix1 i)).setWidth 32 := by
  unfold word
  rw [hs, sixteen, Ideal.cmpf_def]
  show (BitVec.ofBool (decide (_ = _))).setWidth 32 = _
  by_cases hall : ∀ j : Fin 16, above x th i (col p j)
  · rw [matchRows_of_all hall, decide_eq_true ((Cert.Weighted.weighted_sum_eq_iff p (above x th i)).2 hall)]
    rfl
  · rw [matchRows_of_not_all hall,
      decide_eq_false (fun e => hall ((Cert.Weighted.weighted_sum_eq_iff p (above x th i)).1 e))]
    rfl

/-- EVEN ROWS. If the lower 64 lanes of packed row `r` hold row `i` of the matrix, the threshold row holds the thresholds
    twice, and the weight row holds the multiplicities in its lower half and zeros above, the stored word is row `i`'s
    match bit (widened to 32 bits). -/
theorem word_even (x : FVec Ideal SX .f32) (th : FVec Ideal ST .f32) (p : IVec SP 32) (hp : InRange p)
    (X : FVec Ideal S16384x128 .f32) (T W : FVec Ideal S1x128 .f32) (r : Fin 16384) (i : Fin 2000000)
    (hX : ∀ (k : Fin 128) (h : k.val < 64), X (ix2 r k) = x (ix2 i ⟨k.val, h⟩))
    (hT : ∀ k : Fin 128, T (ix2 (0 : Fin 1) k) = th (ix1 ⟨k.val % 64, Nat.mod_lt _ (by decide)⟩))
    (hW : ∀ k : Fin 128, W (ix2 (0 : Fin 1) k) = if h : k.val < 64 then ((count p ⟨k.val, h⟩ : ℝ) : EReal) else 0) :
    word X T W r = (matchRows x th p (ix1 i)).setWidth 32 := by
  classical
  refine word_of_wsum x th p X T W r i ?_
  unfold wsum
  -- The upper 64 lanes weigh zero: only the lower half of the sum remains.
  rw [Cert.Weighted.sum_lower _ (fun k hk => by rw [hW k, dif_neg (by omega)]; exact lane_zero _ _)]
  refine Finset.sum_congr rfl fun l _ => ?_
  -- Lane `l` of the lower half holds feature `l` of row `i`, its threshold and its multiplicity.
  have hl : (⟨l.val, by have := l.isLt; omega⟩ : Fin 128).val < 64 := l.isLt
  have e : (⟨(⟨l.val, by have := l.isLt; omega⟩ : Fin 128).val % 64, Nat.mod_lt _ (by decide)⟩ : Fin 64) = l :=
    Fin.ext (Nat.mod_eq_of_lt l.isLt)
  show Scalar.select (FloatOps.cmpf (F := Ideal) .ogt (X (ix2 r ⟨l.val, _⟩)) (T (ix2 (0 : Fin 1) ⟨l.val, _⟩)))
    (W (ix2 (0 : Fin 1) ⟨l.val, _⟩)) _ = _
  rw [hX _ hl, hT, hW, dif_pos hl, e]
  by_cases ha : above x th i l
  · rw [if_pos ha]; exact lane_hit _ ha
  · rw [if_neg ha]; exact lane_miss _ ha

/-- ODD ROWS. The same with the upper 64 lanes: they hold row `i`, and the weight row holds the multiplicities there. -/
theorem word_odd (x : FVec Ideal SX .f32) (th : FVec Ideal ST .f32) (p : IVec SP 32) (hp : InRange p)
    (X : FVec Ideal S16384x128 .f32) (T W : FVec Ideal S1x128 .f32) (r : Fin 16384) (i : Fin 2000000)
    (hX : ∀ (k : Fin 128) (h : 64 ≤ k.val), X (ix2 r k) = x (ix2 i ⟨k.val - 64, by have := k.isLt; omega⟩))
    (hT : ∀ k : Fin 128, T (ix2 (0 : Fin 1) k) = th (ix1 ⟨k.val % 64, Nat.mod_lt _ (by decide)⟩))
    (hW : ∀ k : Fin 128, W (ix2 (0 : Fin 1) k)
      = if h : 64 ≤ k.val then ((count p ⟨k.val - 64, by have := k.isLt; omega⟩ : ℝ) : EReal) else 0) :
    word X T W r = (matchRows x th p (ix1 i)).setWidth 32 := by
  classical
  refine word_of_wsum x th p X T W r i ?_
  unfold wsum
  -- The lower 64 lanes weigh zero: only the upper half of the sum remains.
  rw [Cert.Weighted.sum_upper _ (fun k hk => by rw [hW k, dif_neg (by omega)]; exact lane_zero _ _)]
  refine Finset.sum_congr rfl fun l _ => ?_
  -- Lane `l + 64` of the upper half holds feature `l` of row `i`, its threshold and its multiplicity.
  have hl : 64 ≤ (⟨l.val + 64, by have := l.isLt; omega⟩ : Fin 128).val := Nat.le_add_left _ _
  have e : (⟨(⟨l.val + 64, by have := l.isLt; omega⟩ : Fin 128).val % 64, Nat.mod_lt _ (by decide)⟩ : Fin 64) = l :=
    Fin.ext (by show (l.val + 64) % 64 = l.val; have := l.isLt; omega)
  have e' : (⟨(⟨l.val + 64, by have := l.isLt; omega⟩ : Fin 128).val - 64, by have := l.isLt; omega⟩ : Fin 64) = l :=
    Fin.ext (by show l.val + 64 - 64 = l.val; omega)
  show Scalar.select (FloatOps.cmpf (F := Ideal) .ogt (X (ix2 r ⟨l.val + 64, _⟩)) (T (ix2 (0 : Fin 1) ⟨l.val + 64, _⟩)))
    (W (ix2 (0 : Fin 1) ⟨l.val + 64, _⟩)) _ = _
  rw [hX _ hl, hT, hW, dif_pos hl, e, e']
  by_cases ha : above x th i l
  · rw [if_pos ha]; exact lane_hit _ ha
  · rw [if_neg ha]; exact lane_miss _ ha

end Cert.KernelIdeal.Row

end
-- ==== Proof.Prelude.lean ====
/-
  What the kernel's four operand arrays hold when the region is entered, read at an index (at the ideal instance):
  the packed matrix (two consecutive rows of `x` side by side), the thresholds written twice, and the two weight rows —
  the multiplicities of the features among the pattern's entries in the lower 64 lanes (zeros above) and in the upper 64
  lanes (zeros below).
-/
import proofs.«422462_j31121333027528_3_alg».proof.Proof.Gen.KernelIdeal.Frame
import proofs.«422462_j31121333027528_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

noncomputable section

namespace Cert.KernelIdeal.Prelude

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

open scoped BigOperators

/-- The inclusion of the reals in the extended reals passes through a finite sum. -/
theorem coe_finite_sum {ι : Type} (S : Finset ι) (f : ι → ℝ) : ((∑ i ∈ S, f i : ℝ) : EReal) = ∑ i ∈ S, (f i : EReal) := by
  classical
  induction S using Finset.induction_on with
  | empty => rw [Finset.sum_empty, Finset.sum_empty]; rfl
  | insert a S ha ih => rw [Finset.sum_insert ha, Finset.sum_insert ha, EReal.coe_add, ih]

/-- A signed word already in `[0, 64)` is its own clamp to `[0, 63]`. -/
theorem clip_word (w : BitVec 32) (h0 : 0 ≤ w.toInt) (h1 : w.toInt < 64) :
    IntOp.minsi 63#32 (IntOp.maxsi 0#32 w) = w := by
  have e0 : (0#32 : BitVec 32).toInt = 0 := by decide
  have e63 : (63#32 : BitVec 32).toInt = 63 := by decide
  have a : IntOp.maxsi 0#32 w = w := by
    unfold IntOp.maxsi
    rw [if_neg]; simp only [BitVec.slt, e0, decide_eq_true_eq]; omega
  rw [a]; unfold IntOp.minsi
  rw [if_neg]; simp only [BitVec.slt, e63, decide_eq_true_eq]; omega

/-- The word comparison for equality, as a number: one when the words agree and zero otherwise. -/
theorem cmpi_eq_toNat (a b : BitVec 32) : (IntOp.cmpi .eq a b).toNat = if a = b then 1 else 0 := by
  by_cases h : a = b
  · rw [if_pos h, StableHlo.Predicate.cmpi_eq_iff.mpr h]; rfl
  · rw [if_neg h]
    rcases BitVec.eq_zero_or_eq_one (IntOp.cmpi .eq a b) with e | e
    · rw [e]; rfl
    · exact absurd (StableHlo.Predicate.cmpi_eq_iff.mp e) h

/-- The pattern clamped to the feature numbers: `max(0, ·)` then `min(63, ·)`, entry by entry, on signed words. -/
abbrev clip (p : IVec S16 32) : IVec S16 32 :=
  minsi (broadcastInDim S16 ![] bcast_S_S16 (constantI S_ 32 63#32)) (maxsi (broadcastInDim S16 ![] bcast_S_S16 (constantI S_ 32 0#32)) p)

/-- A vector of 16 words laid down the rows of a 16 by 64 rectangle (constant along each row). -/
abbrev rowsOf (v : IVec S16 32) : IVec S16x64 32 :=
  broadcastInDim S16x64 ![0, 1] bcast_S16x1_S16x64_0_1 (broadcastInDim S16x1 ![0] bcast_S16_S16x1_0 v)

/-- The lane numbers 0 … 63 laid along the columns of a 16 by 64 rectangle (constant down each column). -/
abbrev lanes : IVec S16x64 32 :=
  broadcastInDim S16x64 ![0, 1] bcast_S1x64_S16x64_0_1 (broadcastInDim S1x64 ![1] bcast_S64_S1x64_1 (iotaInDim S64 32 0))

/-- The multiplicities as the program computes them: for each lane, the sum over the pattern's entries of the indicator
    "the clamped entry is this lane", as a float. -/
abbrev counts (p : IVec S16 32) : S64.Idx → EReal :=
  Host.reduceAdd (F := Ideal) (uitofp .f32 (cmpi .eq (rowsOf (clip p)) lanes)) (constant S_ .f32 0x00000000#32) reducesTo_S16x64_S64_d0 h_S_

/-- A vector of 64 zeros. -/
abbrev zeros : S64.Idx → EReal := broadcastInDim S64 ![] bcast_S_S64 (constant (F := Ideal) S_ .f32 0x00000000#32)

theorem clip_apply (p : IVec S16 32) (hp : Cert.Spec.InRange p) (j : Fin 16) : clip p (ix1 j) = p (ix1 j) :=
  clip_word _ (hp j).1 (hp j).2

theorem rowsOf_apply (v : IVec S16 32) (j : Fin 16) (l : Fin 64) : rowsOf v (ix2 j l) = v (ix1 j) := by
  show broadcastInDim S16x64 ![0, 1] bcast_S16x1_S16x64_0_1 (broadcastInDim S16x1 ![0] bcast_S16_S16x1_0 v) (ix2 j l) = _
  rw [broadcastInDim_apply _ bcast_S16x1_S16x64_0_1 _ (ix2 j l) (ix2 j (0 : Fin 1))
      (fun a => match a with | ⟨0, _⟩ => rfl | ⟨1, _⟩ => rfl),
    broadcastInDim_apply _ bcast_S16_S16x1_0 _ (ix2 j (0 : Fin 1)) (ix1 j) (fun a => match a with | ⟨0, _⟩ => rfl)]

theorem lanes_apply (j : Fin 16) (l : Fin 64) : lanes (ix2 j l) = BitVec.ofNat 32 l.val := by
  show broadcastInDim S16x64 ![0, 1] bcast_S1x64_S16x64_0_1 (broadcastInDim S1x64 ![1] bcast_S64_S1x64_1 (iotaInDim S64 32 0)) (ix2 j l) = _
  rw [broadcastInDim_apply _ bcast_S1x64_S16x64_0_1 _ (ix2 j l) (ix2 (0 : Fin 1) l)
      (fun a => match a with | ⟨0, _⟩ => rfl | ⟨1, _⟩ => rfl),
    broadcastInDim_apply _ bcast_S64_S1x64_1 _ (ix2 (0 : Fin 1) l) (ix1 l) (fun a => match a with | ⟨0, _⟩ => rfl)]
  rfl

/-- An entry in range is the word of lane `l` exactly when it names feature `l`. -/
theorem word_eq_iff_col (p : IVec S16 32) (hp : Cert.Spec.InRange p) (j : Fin 16) (l : Fin 64) :
    p (ix1 j) = BitVec.ofNat 32 l.val ↔ Cert.Spec.col p j = l := by
  have hv := Cert.Spec.col_val hp j
  have hl := l.isLt
  constructor
  · intro h
    apply Fin.ext
    rw [hv, h, BitVec.toNat_ofNat]
    exact Nat.mod_eq_of_lt (by omega)
  · intro h
    apply BitVec.eq_of_toNat_eq
    rw [← hv, h, BitVec.toNat_ofNat]
    exact (Nat.mod_eq_of_lt (by omega)).symm

/-- THE COUNTS. For a pattern in range, lane `l` of the computed multiplicities is the number of entries naming feature `l`. -/
theorem counts_apply (p : IVec S16 32) (hp : Cert.Spec.InRange p) (l : Fin 64) :
    counts p (ix1 l) = ((Cert.Spec.count p l : ℝ) : EReal) := by
  have hR : S16x64.Reduces [0] S64 := by decide
  show Ideal.hostReduceAdd reducesTo_S16x64_S64_d0 _ _ (ix1 l) = _
  rw [Ideal.hostReduceAdd_single reducesTo_S16x64_S64_d0 hR]
  have hinit : (constant (F := Ideal) S_ .f32 0x00000000#32) (Shape.Idx.first h_S_) = (0 : EReal) := Ideal.ofBits_zero_f32
  rw [hinit, zero_add]
  have hlift : ∀ j : Fin 16, hR.lift (ix1 l) j = ix2 j l := fun j => by
    funext a; match a with | ⟨0, _⟩ => rfl | ⟨1, _⟩ => rfl
  have hterm : ∀ j : Fin 16, (uitofp (F := Ideal) .f32 (cmpi .eq (rowsOf (clip p)) lanes)) (hR.lift (ix1 l) j)
      = (((if Cert.Spec.col p j = l then 1 else 0 : ℕ) : ℝ) : EReal) := fun j => by
    rw [hlift j]
    show (((IntOp.cmpi .eq (rowsOf (clip p) (ix2 j l)) (lanes (ix2 j l))).toNat : ℝ) : EReal) = _
    rw [rowsOf_apply, lanes_apply, clip_apply p hp, cmpi_eq_toNat]
    by_cases h : Cert.Spec.col p j = l
    · rw [if_pos h, if_pos ((word_eq_iff_col p hp j l).mpr h)]
    · rw [if_neg h, if_neg (fun h' => h ((word_eq_iff_col p hp j l).mp h'))]
  refine (Finset.sum_congr rfl (fun j _ => hterm j)).trans ?_
  show (∑ j : Fin 16, (((if Cert.Spec.col p j = l then 1 else 0 : ℕ) : ℝ) : EReal)) = _
  rw [← coe_finite_sum, ← Nat.cast_sum]
  unfold Cert.Spec.count
  rw [Finset.card_filter]

/-- Two vectors of 64 entries written one after the other, read at lane `k`: the first below 64, the second (64 lanes
    earlier) from there on. -/
theorem concat64_apply {α : Type} (a b : S64.Idx → α) (h : Shape.Concatenates [S64, S64] S128 0) (k : Fin 128) :
    concatenate S128 0 [⟨S64, a⟩, ⟨S64, b⟩] h (ix1 k)
      = if hk : k.val < 64 then a (ix1 ⟨k.val, hk⟩) else b (ix1 ⟨k.val - 64, by have := k.isLt; omega⟩) := by
  split
  · next hk =>
    exact concatenate_pair_apply_left (0 : Fin 1) a b h (ix1 k) rfl (ix1 ⟨k.val, hk⟩) (fun b => match b with | ⟨0, _⟩ => rfl)
  · next hk =>
    exact concatenate_pair_apply_right (0 : Fin 1) a b h (ix1 k) rfl rfl (ix1 ⟨k.val - 64, by have := k.isLt; omega⟩)
      (fun b hb => match b with | ⟨0, _⟩ => absurd rfl hb)
      (by show k.val - 64 + 64 = k.val; omega)

/-- A vector of 128 entries laid out as one row. -/
theorem row128_apply {α : Type} (x : S128.Idx → α) (h : S128.ShapeCasts S1x128) (k : Fin 128) :
    shapeCast S1x128 x h (ix2 0 k) = x (ix1 k) :=
  shapeCast_a_1a_apply x h 0 k

/-- The doubled thresholds as the operations compose them: the thresholds written twice, as one row. -/
theorem V_thresh_term (c : Dev nD) :
    (V m c main_v15 : S1x128.Idx → EReal)
      = shapeCast S1x128 (concatenate S128 0 [⟨S64, (m ((c : Thread nD τ).loc main_arg1) : S64.Idx → EReal)⟩,
          ⟨S64, (m ((c : Thread nD τ).loc main_arg1) : S64.Idx → EReal)⟩] concatenates_S64_S64_S128_d0) shapeCasts_S128_S1x128 := by
  dsimp only [Gen.V, Gen.V0]
  simp only [Gen.hostOps0, Gen.hostOps0_1, Gen.hostOps0_2, List.flatten_cons, List.flatten_nil, List.append_nil, List.cons_append,
    List.nil_append]
  after_results
  rfl

/-- The packed matrix as the operations compose it: the row-major reshape of `x`. -/
theorem V_packed_term (c : Dev nD) :
    (V m c main_v16 : S1000000x128.Idx → EReal)
      = shapeCast S1000000x128 (m ((c : Thread nD τ).loc main_arg0) : S2000000x64.Idx → EReal) shapeCasts_S2000000x64_S1000000x128 := by
  dsimp only [Gen.V, Gen.V0]
  simp only [Gen.hostOps0, Gen.hostOps0_1, Gen.hostOps0_2, List.flatten_cons, List.flatten_nil, List.append_nil, List.cons_append,
    List.nil_append]
  after_results
  rfl

/-- A lane of the vector of zeros is the extended real zero. -/
theorem zeros_apply (l : Fin 64) : zeros (ix1 l) = 0 := Ideal.ofBits_zero_f32

set_option maxHeartbeats 2000000 in
/-- The even rows' weights as the operations compose them: the multiplicities, then 64 zeros, as one row. -/
theorem V_weightsA_term (c : Dev nD) :
    (V m c main_v11 : S1x128.Idx → EReal)
      = shapeCast S1x128 (concatenate S128 0 [⟨S64, counts (m ((c : Thread nD τ).loc main_arg2))⟩, ⟨S64, zeros⟩]
          concatenates_S64_S64_S128_d0) shapeCasts_S128_S1x128 := by
  dsimp only [Gen.V, Gen.V0]
  simp only [Gen.hostOps0, Gen.hostOps0_1, Gen.hostOps0_2, List.flatten_cons, List.flatten_nil, List.append_nil, List.cons_append,
    List.nil_append]
  after_results
  rfl

set_option maxHeartbeats 2000000 in
/-- The odd rows' weights as the operations compose them: 64 zeros, then the multiplicities, as one row. -/
theorem V_weightsB_term (c : Dev nD) :
    (V m c main_v13 : S1x128.Idx → EReal)
      = shapeCast S1x128 (concatenate S128 0 [⟨S64, zeros⟩, ⟨S64, counts (m ((c : Thread nD τ).loc main_arg2))⟩]
          concatenates_S64_S64_S128_d0) shapeCasts_S128_S1x128 := by
  dsimp only [Gen.V, Gen.V0]
  simp only [Gen.hostOps0, Gen.hostOps0_1, Gen.hostOps0_2, List.flatten_cons, List.flatten_nil, List.append_nil, List.cons_append,
    List.nil_append]
  after_results
  rfl

/-- The packed matrix: row `r`, lane `k` is row `2r + k / 64`, feature `k % 64` of `x` (a row-major reshape). -/
theorem V_packed (c : Dev nD) (r : Fin 1000000) (k : Fin 128) :
    (V m c main_v16 : S1000000x128.Idx → EReal) (ix2 r k)
      = (m ((c : Thread nD τ).loc main_arg0) : S2000000x64.Idx → EReal)
          (ix2 ⟨2 * r.val + k.val / 64, by have := r.isLt; have := k.isLt; omega⟩ ⟨k.val % 64, Nat.mod_lt _ (by decide)⟩) := by
  rw [V_packed_term]
  refine shapeCast_apply (s := S2000000x64) (t := S1000000x128) _ _ _ _ ?_
  show (S2000000x64.rowMajor (ix2 (⟨2 * r.val + k.val / 64, _⟩ : Fin 2000000) (⟨k.val % 64, _⟩ : Fin 64))).val
      = (S1000000x128.rowMajor (ix2 r k)).val
  rw [Shape.rowMajor_val_two, Shape.rowMajor_val_two]
  show (2 * r.val + k.val / 64) * 64 + k.val % 64 = r.val * 128 + k.val
  omega

/-- The doubled thresholds: lane `k` is threshold `k % 64`. -/
theorem V_thresh (c : Dev nD) (k : Fin 128) :
    (V m c main_v15 : S1x128.Idx → EReal) (ix2 0 k)
      = (m ((c : Thread nD τ).loc main_arg1) : S64.Idx → EReal) (ix1 ⟨k.val % 64, Nat.mod_lt _ (by decide)⟩) := by
  rw [V_thresh_term, row128_apply, concat64_apply]
  have hk := k.isLt
  split
  · next h => congr 2; apply Fin.ext; show k.val = k.val % 64; omega
  · next h => congr 2; apply Fin.ext; show k.val - 64 = k.val % 64; omega

/-- The even rows' weights: in a lower lane the multiplicity of that feature among the pattern's entries, zero above. -/
theorem V_weightsA (c : Dev nD) (hp : Cert.Spec.InRange (m ((c : Thread nD τ).loc main_arg2))) (k : Fin 128) :
    (V m c main_v11 : S1x128.Idx → EReal) (ix2 0 k)
      = if h : k.val < 64 then ((Cert.Spec.count (m ((c : Thread nD τ).loc main_arg2)) ⟨k.val, h⟩ : ℝ) : EReal) else 0 := by
  rw [V_weightsA_term, row128_apply, concat64_apply]
  split
  · next h => exact counts_apply _ hp ⟨k.val, h⟩
  · next h => exact zeros_apply _

/-- The odd rows' weights: in an upper lane `k` the multiplicity of feature `k - 64`, zero below. -/
theorem V_weightsB (c : Dev nD) (hp : Cert.Spec.InRange (m ((c : Thread nD τ).loc main_arg2))) (k : Fin 128) :
    (V m c main_v13 : S1x128.Idx → EReal) (ix2 0 k)
      = if h : 64 ≤ k.val then ((Cert.Spec.count (m ((c : Thread nD τ).loc main_arg2)) ⟨k.val - 64, by have := k.isLt; omega⟩ : ℝ) : EReal) else 0 := by
  rw [V_weightsB_term, row128_apply, concat64_apply]
  by_cases h : k.val < 64
  · rw [dif_pos h, dif_neg (by omega)]; exact zeros_apply _
  · rw [dif_neg h, dif_pos (by omega)]; exact counts_apply _ hp _

end Cert.KernelIdeal.Prelude

end
-- ==== Proof.KFinal.lean ====
/-
  The idealized kernel's result is the specification's. Row `r` of the even result array is the word of packed row `r`
  with the multiplicities in the lower lanes, which hold row `2r` of the matrix: row `2r`'s match bit; the odd array's row `r`
  likewise is row `2r + 1`'s. The host operations after the region turn the words back into bits and interleave them.
-/
import proofs.«422462_j31121333027528_3_alg».proof.Proof.KBlocks
import proofs.«422462_j31121333027528_3_alg».proof.Proof.KReads
import proofs.«422462_j31121333027528_3_alg».proof.Proof.KTail
import proofs.«422462_j31121333027528_3_alg».proof.Proof.KRow
import proofs.«422462_j31121333027528_3_alg».proof.Proof.Prelude
import proofs.«422462_j31121333027528_3_alg».proof.Proof.Spec

set_option maxRecDepth 65536

noncomputable section

namespace Cert.KernelIdeal.Final

open Cert.KernelIdeal Cert.KernelIdeal.Gen Cert.KernelIdeal.Data Cert.KernelIdeal.Oblig Cert.KernelIdeal.Blocks
open Idealize.ShloMosaic Idealize.ShloMosaic.TcCoe Idealize.ShloMosaic.ValueIdx Idealize.SL.Sem
open Idealize.ShloMosaic.Rounds
open Idealize.ShloMosaic.Pipeline (Dat Cfg Window)

variable (m : (ℓ : Loc nD τ sig) → Buf (Elt Ideal) ℓ)

/-- A bit widened to a word is not zero exactly when the bit is one. -/
theorem ne_zero_of_widened : ∀ w : BitVec 1, IntOp.cmpi .ne (w.setWidth 32) 0#32 = w := by decide

/-- Row `r` of the even result array is the match bit of row `2r` of the matrix. -/
theorem even_row (c : Dev nD) (hp : Cert.Spec.InRange (m ((c : Thread nD τ).loc main_arg2))) (r : Fin 1000000) :
    evenArr m c (ix1 r)
      = (Cert.Spec.matchRows (m ((c : Thread nD τ).loc main_arg0)) (m ((c : Thread nD τ).loc main_arg1)) (m ((c : Thread nD τ).loc main_arg2))
          (ix1 ⟨2 * r.val, by have := r.isLt; omega⟩)).setWidth 32 := by
  show k0_pay2 (F := Ideal) (xfull m c (pt r)) (iblk m c 1 (pt r)) (iblk m c 2 (pt r)) (ix1 (rowIn r)) = _
  rw [pay2_apply]
  refine Cert.KernelIdeal.Row.word_even (m ((c : Thread nD τ).loc main_arg0)) (m ((c : Thread nD τ).loc main_arg1)) (m ((c : Thread nD τ).loc main_arg2)) hp _ _ _ (rowIn r) _ ?_ ?_ ?_
  · intro k hk
    rw [Reads.xfull_apply, Prelude.V_packed]
    congr 1
    funext a
    match a with
    | ⟨0, _⟩ => exact Fin.ext (by show 2 * r.val + k.val / 64 = 2 * r.val; omega)
    | ⟨1, _⟩ => exact Fin.ext (by show k.val % 64 = k.val; omega)
  · intro k
    rw [Reads.iblk1_apply, Prelude.V_thresh]
  · intro k
    rw [Reads.iblk2_apply, Prelude.V_weightsA m c hp k]

/-- Row `r` of the odd result array is the match bit of row `2r + 1` of the matrix. -/
theorem odd_row (c : Dev nD) (hp : Cert.Spec.InRange (m ((c : Thread nD τ).loc main_arg2))) (r : Fin 1000000) :
    oddArr m c (ix1 r)
      = (Cert.Spec.matchRows (m ((c : Thread nD τ).loc main_arg0)) (m ((c : Thread nD τ).loc main_arg1)) (m ((c : Thread nD τ).loc main_arg2))
          (ix1 ⟨2 * r.val + 1, by have := r.isLt; omega⟩)).setWidth 32 := by
  show k0_pay3 (F := Ideal) (xfull m c (pt r)) (iblk m c 1 (pt r)) (iblk m c 3 (pt r)) (ix1 (rowIn r)) = _
  rw [pay3_apply]
  refine Cert.KernelIdeal.Row.word_odd (m ((c : Thread nD τ).loc main_arg0)) (m ((c : Thread nD τ).loc main_arg1)) (m ((c : Thread nD τ).loc main_arg2)) hp _ _ _ (rowIn r) _ ?_ ?_ ?_
  · intro k hk
    rw [Reads.xfull_apply, Prelude.V_packed]
    congr 1
    funext a
    match a with
    | ⟨0, _⟩ => exact Fin.ext (by show 2 * r.val + k.val / 64 = 2 * r.val + 1; have := k.isLt; omega)
    | ⟨1, _⟩ => exact Fin.ext (by show k.val % 64 = k.val - 64; have := k.isLt; omega)
  · intro k
    rw [Reads.iblk1_apply, Prelude.V_thresh]
  · intro k
    rw [Reads.iblk3_apply, Prelude.V_weightsB m c hp k]

/-- THE KERNEL'S VALUE: where the pattern's entries are feature numbers, the program's result after the run is the
    specification's match bits of the arguments. -/
theorem result_eq (c : Dev nD) (hp : Cert.Spec.InRange (m ((c : Thread nD τ).loc main_arg2))) :
    (Pipeline.afterTail₀ cfgs (dats m) 0 (V0 m) [hostOps1] c main_v27 : S2000000.Idx → BitVec 1)
      = Cert.Spec.matchRows (m ((c : Thread nD τ).loc main_arg0)) (m ((c : Thread nD τ).loc main_arg1)) (m ((c : Thread nD τ).loc main_arg2)) := by
  funext i
  obtain ⟨q, rfl⟩ : ∃ q : Fin 2000000, i = ix1 q := ⟨i ⟨0, Nat.zero_lt_one⟩, eq_ix1 i⟩
  rcases Nat.even_or_odd' q.val with ⟨r, hr | hr⟩
  · have hr' : r < 1000000 := by have := q.isLt; omega
    have hq : q = ⟨2 * (⟨r, hr'⟩ : Fin 1000000).val, by show 2 * r < 2000000; omega⟩ := Fin.ext hr
    rw [hq, Tail.result_even m (dats m) c ⟨r, hr'⟩, final_even, even_row m c hp]
    exact ne_zero_of_widened _
  · have hr' : r < 1000000 := by have := q.isLt; omega
    have hq : q = ⟨2 * (⟨r, hr'⟩ : Fin 1000000).val + 1, by show 2 * r + 1 < 2000000; omega⟩ := Fin.ext hr
    rw [hq, Tail.result_odd m (dats m) c ⟨r, hr'⟩, final_odd, odd_row m c hp]
    exact ne_zero_of_widened _

end Cert.KernelIdeal.Final

end
-- ==== Proof.RefValue.lean ====
/-
  The reference's run: what its result array holds, as the specification's function of the arguments.

  The reference compares every feature of every row with its threshold, takes for each of the sixteen pattern entries
  the comparison bit of the feature the entry names, and conjoins the sixteen bits of each row. On the way it moves a
  negative entry up by 64 and replaces by true the bit of an entry that, after the move, is not a feature number; for a
  pattern whose entries are all feature numbers neither does anything, and the row's result is true exactly when every
  named feature is strictly above its threshold: the specification's match bit.

  First the computation as seven named stages, pure functions of the three arguments; then the run (the program is a
  straight line of 28 operations once its two calls are unfolded, and its result buffer ends at the last stage); then
  each stage read at an index, and the equality with the specification row by row.
-/
import proofs.«422462_j31121333027528_3_alg».proof.ReferenceIdeal
import proofs.«422462_j31121333027528_3_alg».proof.Proof.Gen.ReferenceIdeal
import proofs.«422462_j31121333027528_3_alg».proof.Proof.Spec
import Idealize.ShloMosaic.Lib.StableHlo.Run
import Idealize.ShloMosaic.Lib.StableHlo.Predicate
import Idealize.ShloMosaic.Lib.ReduceAll
import Idealize.ShloMosaic.Lib.ValueIdx
import Idealize.ShloMosaic.Adequacy
import Idealize.ShloMosaic.Init

noncomputable section

namespace Cert.ReferenceIdeal.RefValue

open Idealize.ShloMosaic Idealize.SL.Sem Cert.ReferenceIdeal
open Idealize.ShloMosaic.TcCoe Idealize.ShloMosaic.ValueIdx Idealize.ShloMosaic.StableHlo

section Stages

open Cert.ReferenceIdeal.Facts₀ Cert.ReferenceIdeal.Facts

variable [Cert.ReferenceIdeal.Facts] {F : FTy → Type} [FloatOps F]

/-! ## The stages of the reference's computation, as pure functions of the three arguments -/

/-- Every feature of every row compared with its threshold: the bit at (row, feature) says the feature is strictly
    above its threshold there. -/
def bouts (x : FVec F S2000000x64 .f32) (th : FVec F S64 .f32) : IVec S2000000x64 1 :=
  cmpf .ogt x (broadcastInDim S2000000x64 ![0, 1] bcast_S1x64_S2000000x64_0_1 (broadcastInDim S1x64 ![1] bcast_S64_S1x64_1 th))

/-- The pattern with a negative entry moved up by 64 (an entry in range is left as it is). -/
def wrapped (p : IVec S16 32) : IVec S16 32 :=
  select (cmpi .slt p (broadcastInDim S16 ![] bcast_S_S16 (constantI S_ 32 0#32)))
    (addi p (broadcastInDim S16 ![] bcast_S_S16 (constantI S_ 32 64#32))) p

/-- The moved pattern as a column of start indices. -/
def starts (p : IVec S16 32) : IVec S16x1 32 := broadcastInDim S16x1 ![0] bcast_S16_S16x1_0 (wrapped p)

/-- Per pattern entry, whether the moved entry is a feature number: at least 0 and at most 63. -/
def valid (p : IVec S16 32) : IVec S16 1 :=
  Host.reduce IntOp.andi
    (andi (cmpi .sge (starts p) (broadcastInDim S16x1 ![] bcast_S_S16x1 (constantI S_ 32 0#32)))
      (cmpi .sle (starts p) (broadcastInDim S16x1 ![0, 1] bcast_S1x1_S16x1_0_1 (broadcastInDim S1x1 ![1] bcast_S1_S1x1_1 (constantI S1 32 63#32)))))
    (constantI S_ 1 1#1) reducesTo_S16x1_S16_d1 h_S_

/-- Per row and pattern entry, the comparison bit of the feature the entry names (the start index clamped into the
    features' range). -/
def taken (x : FVec F S2000000x64 .f32) (th : FVec F S64 .f32) (p : IVec S16 32) : IVec S2000000x16 1 :=
  Host.gather gather_S2000000x64_S16x1_S2000000x16_0_1_n_n_1_1_20000001 (bouts x th) (starts p)

/-- The taken bits, with a true bit wherever the entry is not a feature number. -/
def filled (x : FVec F S2000000x64 .f32) (th : FVec F S64 .f32) (p : IVec S16 32) : IVec S2000000x16 1 :=
  select (broadcastInDim S2000000x16 ![1] bcast_S16_S2000000x16_1 (valid p)) (taken x th p)
    (broadcastInDim S2000000x16 ![] bcast_S_S2000000x16 (constantI S_ 1 1#1))

/-- Per row, the conjunction of its sixteen bits: the reference's result. -/
def out (x : FVec F S2000000x64 .f32) (th : FVec F S64 .f32) (p : IVec S16 32) : IVec S2000000 1 :=
  Host.reduce IntOp.andi (filled x th p) (constantI S_ 1 1#1) reducesTo_S2000000x16_S2000000_d1 h_S_

/-! ## The run -/

/-- @main's 28 operations in order, the two calls unfolded at their sites: three of @main's own (the thresholds
    broadcast along the rows in two steps, the comparison), the take's twenty-three over its call's buffers (among them
    the one select of the nested call, over that call's buffer), then @main's last two (the constant true and the
    conjunction along the pattern's axis). -/
abbrev ops : List (HloOp τ sig (Elt F)) :=
  [ unary main_arg1 main_v0 (broadcastInDim S1x64 ![1] bcast_S64_S1x64_1 : (⟨S64, .f32⟩ : BufTy).Contents (Elt F) → (⟨S1x64, .f32⟩ : BufTy).Contents (Elt F)),
    unary main_v0 main_v1 (broadcastInDim S2000000x64 ![0, 1] bcast_S1x64_S2000000x64_0_1 : (⟨S1x64, .f32⟩ : BufTy).Contents (Elt F) → (⟨S2000000x64, .f32⟩ : BufTy).Contents (Elt F)),
    binary main_arg0 main_v1 main_v2 (cmpf .ogt : (⟨S2000000x64, .f32⟩ : BufTy).Contents (Elt F) → (⟨S2000000x64, .f32⟩ : BufTy).Contents (Elt F) → (⟨S2000000x64, .i1⟩ : BufTy).Contents (Elt F)),
    TRef.nullary main_call0.c (constantI S_ 32 0#32),
    TRef.unary main_call0.c main_call0.v0 (broadcastInDim S16 ![] bcast_S_S16),
    TRef.binary (.of main_arg2) main_call0.v0 main_call0.v1 (cmpi .slt),
    TRef.nullary main_call0.c_0 (constantI S_ 32 64#32),
    TRef.unary main_call0.c_0 main_call0.v2 (broadcastInDim S16 ![] bcast_S_S16),
    TRef.binary (.of main_arg2) main_call0.v2 main_call0.v3 addi,
    TRef.ternary main_call0.v1 main_call0.v3 (.of main_arg2) main_call0.call0.v0 select,
    TRef.unary main_call0.call0.v0 main_call0.v5 (broadcastInDim S16x1 ![0] bcast_S16_S16x1_0),
    TRef.nullary main_call0.c_1 (constantI S1 32 63#32),
    TRef.nullary main_call0.c_2 (constantI S_ 32 0#32),
    TRef.unary main_call0.c_2 main_call0.v6 (broadcastInDim S16x1 ![] bcast_S_S16x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16x1 ![0, 1] bcast_S1x1_S16x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16x1_S16_d1 h_S_),
    TRef.binary (.of main_v2) main_call0.v5 main_call0.v13 (fun x i => Host.gather gather_S2000000x64_S16x1_S2000000x16_0_1_n_n_1_1_20000001 x i),
    TRef.unary main_call0.v12 main_call0.v14 (broadcastInDim S2000000x16 ![1] bcast_S16_S2000000x16_1),
    TRef.nullary main_call0.c_4 (constantI S_ 1 1#1),
    TRef.unary main_call0.c_4 main_call0.v15 (broadcastInDim S2000000x16 ![] bcast_S_S2000000x16),
    TRef.ternary main_call0.v14 main_call0.v13 main_call0.v15 main_call0.v16 select,
    nullary main_c (constantI S_ 1 1#1),
    binary main_v3 main_c main_v4 ((fun x v => Host.reduce IntOp.andi x v reducesTo_S2000000x16_S2000000_d1 h_S_) : (⟨S2000000x16, .i1⟩ : BufTy).Contents (Elt F) → (⟨S_, .i1⟩ : BufTy).Contents (Elt F) → (⟨S2000000, .i1⟩ : BufTy).Contents (Elt F)) ]

-- twenty-eight binds re-associated under the two unfolded calls
set_option maxRecDepth 1024 in
/-- @main is that straight line: the two functions' bodies unfolded at their calls, the sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., nullary_bufs_sub .., binary_bufs_sub ..⟩

attribute [local irreducible] Host.reduce Host.gather in
/-- The fold of the operations at the result buffer is the stages' composed value of the arguments' contents. -/
theorem out_eq (V : Valuation τ sig (Elt F)) :
    after (ops (F := F)) V (main_v4 : DevRef τ sig)
      = out (F := F) (V (main_arg0 : DevRef τ sig)) (V (main_arg1 : DevRef τ sig)) (V (main_arg2 : DevRef τ sig)) := by
  after_results_simp
  rfl

/-- No operation writes the matrix's buffer. -/
theorem arg0_eq (V : Valuation τ sig (Elt F)) :
    after (ops (F := F)) V (main_arg0 : DevRef τ sig) = V (main_arg0 : DevRef τ sig) := by
  after_results_simp

/-- No operation writes the thresholds' buffer. -/
theorem arg1_eq (V : Valuation τ sig (Elt F)) :
    after (ops (F := F)) V (main_arg1 : DevRef τ sig) = V (main_arg1 : DevRef τ sig) := by
  after_results_simp

/-- No operation writes the pattern's buffer. -/
theorem arg2_eq (V : Valuation τ sig (Elt F)) :
    after (ops (F := F)) V (main_arg2 : DevRef τ sig) = V (main_arg2 : DevRef τ sig) := by
  after_results_simp

/-- On the one device, from any memory with zero counters: every weakly fair execution of @main terminates with the
    result buffer at the stages' composed value of the three arguments' launch contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v4)
        = out (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v4).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

/-! ## Reading the stages at an index -/

/-- The reference's gather record, under a short name. -/
local notation "gd" => gather_S2000000x64_S16x1_S2000000x16_0_1_n_n_1_1_20000001

/-- A conjunction of bits folded from true is true exactly when every bit is. -/
theorem fold_andi_eq_one_iff {ι : Type} (S : Finset ι) (g : ι → BitVec 1) :
    S.fold IntOp.andi 1#1 g = 1#1 ↔ ∀ k ∈ S, g k = 1#1 := by
  induction S using Finset.cons_induction with
  | empty => simp
  | cons a S ha ih =>
    rw [Finset.fold_cons, IntOp.andi_eq_one, ih]
    simp only [Finset.mem_cons, forall_eq_or_imp]

/-- In a rectangle reduced along its second axis, the index over row `r` with coordinate `k` inserted is `(r, k)`. -/
theorem lift_cols {n m : Nat} (h : (⟨2, ![n, m]⟩ : Shape).Reduces [1] ⟨1, ![n]⟩) (r : Fin n) (k : Fin m) :
    h.lift (ix1 r) k = ix2 r k := by
  funext c
  apply Fin.ext
  show h.liftVal (ix1 r) k.val c = (ix2 r k c).val
  unfold Shape.Reduces.liftVal
  match c with
  | ⟨0, _⟩ => rfl
  | ⟨1, _⟩ => rfl

/-- A conjunction along the second axis of a rectangle of bits, from true: row `r`'s result is true exactly when every
    bit of the row is. -/
theorem reduce_cols_eq_one_iff {n m : Nat} {u : Shape} (x : IVec ⟨2, ![n, m]⟩ 1) (init : u.Idx → BitVec 1) (hu : 0 < u.numel)
    (hinit : init (Shape.Idx.first hu) = 1#1)
    (h' : (⟨2, ![n, m]⟩ : Shape).ReducesTo [1] ⟨1, ![n]⟩) (h : (⟨2, ![n, m]⟩ : Shape).Reduces [1] ⟨1, ![n]⟩) (r : Fin n) :
    Host.reduce IntOp.andi x init h' hu (ix1 r) = 1#1 ↔ ∀ k : Fin m, x (ix2 r k) = 1#1 := by
  rw [Host.reduce_eq_fold_single IntOp.andi x init h' h hu (ix1 r), hinit, fold_andi_eq_one_iff]
  constructor
  · intro H k
    exact (congrArg x (lift_cols h r k)).symm.trans (H k (Finset.mem_univ _))
  · intro H k _
    exact (congrArg x (lift_cols h r k)).trans (H k)

/-- THE GATHER READ AT (row, entry): the operand at the same row and at the column the entry's start index names, read
    signed and clamped into the 64 columns. -/
theorem gather_apply {α : Type} (x : S2000000x64.Idx → α) (idx : IVec S16x1 32) (r : Fin 2000000) (j : Fin 16) :
    Host.gather gd x idx (ix2 r j)
      = x (ix2 r ⟨min (idx (ix2 j (0 : Fin 1))).toInt.toNat 63, by omega⟩) := by
  have hm1 : (1 : Fin 2) ∈ (gd).startIndexMap := by decide
  have hm0 : (0 : Fin 2) ∉ (gd).startIndexMap := by decide
  have hk0 : (0 : Fin 2) ∈ (gd).sKept := by decide
  have hk1 : (1 : Fin 2) ∉ (gd).sKept := by decide
  unfold Host.gather
  congr 1
  funext a
  refine Fin.ext ?_
  match a with
  | ⟨0, _⟩ =>
    show (gd).start (ix2 r j) idx 0 + (gd).batchCoord (ix2 r j) 0 + (gd).offCoord (ix2 r j) 0 = r.val
    rw [GatherDims.batchCoord_eq_zero _ _ _ List.not_mem_nil]
    unfold GatherDims.start
    rw [dif_neg hm0]
    unfold GatherDims.offCoord
    rw [dif_pos hk0]
    simp only [Nat.zero_add, Nat.add_zero]
    rfl
  | ⟨1, _⟩ =>
    show (gd).start (ix2 r j) idx 1 + (gd).batchCoord (ix2 r j) 1 + (gd).offCoord (ix2 r j) 1
      = min (idx (ix2 j (0 : Fin 1))).toInt.toNat 63
    rw [GatherDims.batchCoord_eq_zero _ _ _ List.not_mem_nil, GatherDims.offCoord_eq_zero _ _ _ hk1]
    simp only [Nat.add_zero]
    unfold GatherDims.start
    rw [dif_pos hm1]
    have hsi : (gd).siIdx (ix2 r j) ⟨List.idxOf (1 : Fin 2) (gd).startIndexMap, List.idxOf_lt_length_iff.2 hm1⟩
        = ix2 j (0 : Fin 1) := by
      funext b; refine Fin.ext ?_
      match b with
      | ⟨0, _⟩ => rfl
      | ⟨1, _⟩ => rfl
    rw [hsi]
    rfl

/-- The library's row-column index is the index from two coordinates. -/
theorem ij_eq_ix2 {n m : Nat} (a : Fin n) (b : Fin m) : Predicate.ij a b = ix2 a b := by
  funext c; match c with | ⟨0, _⟩ => rfl | ⟨1, _⟩ => rfl
/-- The library's column index is the index from a coordinate and the unit axis's zero. -/
theorem ixP_eq_ix2 {n : Nat} (a : Fin n) : Predicate.ixP a = ix2 a (0 : Fin 1) := by
  funext c; match c with | ⟨0, _⟩ => rfl | ⟨1, _⟩ => rfl
/-- The library's rank-1 index is the index from one coordinate. -/
theorem ofFin_eq_ix1 {n : Nat} (a : Fin n) : Shape.Idx.ofFin a = ix1 a := by
  funext c; match c with | ⟨0, _⟩ => exact Fin.ext rfl

/-- The thresholds laid along the rows (in the printed two steps) read, at (row, feature), the feature's threshold. -/
theorem thresholds_apply {α : Type} (v : S64.Idx → α) (r : Fin 2000000) (l : Fin 64) :
    broadcastInDim S2000000x64 ![0, 1] bcast_S1x64_S2000000x64_0_1 (broadcastInDim S1x64 ![1] bcast_S64_S1x64_1 v) (ix2 r l)
      = v (ix1 l) := by
  have h := Predicate.bcast_cols bcast_S64_S1x64_1 bcast_S1x64_S2000000x64_0_1 v r l
  rw [ij_eq_ix2, ofFin_eq_ix1] at h
  exact h

/-- A vector over the pattern's entries kept as a column reads, at (entry, 0), the vector at the entry. -/
theorem column_apply {α : Type} (v : S16.Idx → α) (j : Fin 16) :
    broadcastInDim S16x1 ![0] bcast_S16_S16x1_0 v (ix2 j (0 : Fin 1)) = v (ix1 j) := by
  have h := Predicate.bcast_col1 bcast_S16_S16x1_0 v j
  rw [ixP_eq_ix2, ofFin_eq_ix1] at h
  exact h

/-- A vector over the pattern's entries laid across the rows reads, at (row, entry), the vector at the entry. -/
theorem entries_apply {α : Type} (v : S16.Idx → α) (r : Fin 2000000) (j : Fin 16) :
    broadcastInDim S2000000x16 ![1] bcast_S16_S2000000x16_1 v (ix2 r j) = v (ix1 j) := by
  simp only [broadcastInDim]
  congr 1
  funext a
  obtain rfl : a = 0 := Subsingleton.elim _ _
  apply Fin.ext
  split
  · next h1 => exact absurd h1 (by decide)
  · rfl

/-- An entry in range is a small word: it reads the same signed and unsigned, and is below 64. -/
theorem word_of_inRange {p : IVec S16 32} (hp : Cert.Spec.InRange p) (j : Fin 16) :
    (p (ix1 j)).toInt = ((p (ix1 j)).toNat : Int) ∧ (p (ix1 j)).toNat < 64 := by
  have hlt : (p (ix1 j)).toNat < 64 := by rw [← Cert.Spec.col_val hp j]; exact (Cert.Spec.col p j).isLt
  refine ⟨?_, hlt⟩
  rw [BitVec.toInt_eq_toNat_cond, if_pos (by omega)]

section AtIdeal

variable (x : FVec Ideal S2000000x64 .f32) (th : FVec Ideal S64 .f32) (p : IVec S16 32)

/-- The comparison bit at (row, feature): the feature is strictly above its threshold there. -/
theorem bouts_apply (r : Fin 2000000) (l : Fin 64) :
    bouts x th (ix2 r l) = BitVec.ofBool (decide (th (ix1 l) < x (ix2 r l))) := by
  unfold bouts
  rw [cmpf_apply, thresholds_apply]
  rfl

/-- An entry in range is not negative, so it is not moved. -/
theorem wrapped_apply (hp : Cert.Spec.InRange p) (j : Fin 16) : wrapped p (ix1 j) = p (ix1 j) := by
  have hz : (0#32 : BitVec 32).toInt = 0 := by decide
  have h0 : IntOp.cmpi .slt (p (ix1 j)) 0#32 = 0#1 :=
    eq_zero_of_ne_one fun h => by have := IntOp.cmpi_slt.1 h; have := (hp j).1; omega
  show Scalar.select (IntOp.cmpi .slt (p (ix1 j)) 0#32) (IntOp.addi (p (ix1 j)) 64#32) (p (ix1 j)) = p (ix1 j)
  rw [h0, select_zero]

/-- The column of start indices reads, at (entry, 0), the moved entry. -/
theorem starts_apply (j : Fin 16) : starts p (ix2 j (0 : Fin 1)) = wrapped p (ix1 j) := by
  unfold starts
  exact column_apply _ j

/-- Every entry in range passes the range test. -/
theorem valid_apply (hp : Cert.Spec.InRange p) (j : Fin 16) : valid p (ix1 j) = 1#1 := by
  unfold valid
  rw [reduce_cols_eq_one_iff _ _ h_S_ rfl reducesTo_S16x1_S16_d1 (by decide) j]
  intro k
  obtain rfl : k = 0 := Subsingleton.elim _ _
  show IntOp.andi (IntOp.cmpi .sge (starts p (ix2 j (0 : Fin 1))) 0#32) (IntOp.cmpi .sle (starts p (ix2 j (0 : Fin 1))) 63#32) = 1#1
  rw [starts_apply, wrapped_apply p hp, IntOp.andi_eq_one, IntOp.cmpi_sge, IntOp.cmpi_sle]
  have := hp j
  have h0 : (0#32 : BitVec 32).toInt = 0 := by decide
  have h63 : (63#32 : BitVec 32).toInt = 63 := by decide
  omega

/-- The taken bit at (row, entry) is the comparison bit of the feature the entry names. -/
theorem taken_apply (hp : Cert.Spec.InRange p) (r : Fin 2000000) (j : Fin 16) :
    taken x th p (ix2 r j) = bouts x th (ix2 r (Cert.Spec.col p j)) := by
  unfold taken
  rw [gather_apply]
  congr 2
  apply Fin.ext
  show min (starts p (ix2 j (0 : Fin 1))).toInt.toNat 63 = (Cert.Spec.col p j).val
  rw [starts_apply, wrapped_apply p hp, Cert.Spec.col_val hp j]
  have := word_of_inRange hp j
  omega

/-- Nothing is filled in: the bit at (row, entry) is still the comparison bit of the feature the entry names. -/
theorem filled_apply (hp : Cert.Spec.InRange p) (r : Fin 2000000) (j : Fin 16) :
    filled x th p (ix2 r j) = bouts x th (ix2 r (Cert.Spec.col p j)) := by
  show Scalar.select ((broadcastInDim S2000000x16 ![1] bcast_S16_S2000000x16_1 (valid p)) (ix2 r j)) (taken x th p (ix2 r j)) _ = _
  rw [entries_apply, valid_apply p hp, select_one, taken_apply x th p hp]

/-- A row's result bit is true exactly when every feature the pattern names is above its threshold in that row. -/
theorem out_eq_one_iff (hp : Cert.Spec.InRange p) (r : Fin 2000000) :
    out x th p (ix1 r) = 1#1 ↔ ∀ j : Fin 16, Cert.Spec.above x th r (Cert.Spec.col p j) := by
  unfold out
  rw [reduce_cols_eq_one_iff _ _ h_S_ rfl reducesTo_S2000000x16_S2000000_d1 (by decide) r]
  refine forall_congr' fun j => ?_
  rw [filled_apply x th p hp, bouts_apply, Predicate.ofBool_eq_one_iff, decide_eq_true_eq]
  rfl

/-- THE VALUE: where the pattern's entries are feature numbers, the stages' composed value is the specification's match
    bits. -/
theorem out_eq_matchRows (hp : Cert.Spec.InRange p) : out x th p = Cert.Spec.matchRows x th p := by
  funext i
  obtain ⟨r, rfl⟩ : ∃ r : Fin 2000000, i = ix1 r := ⟨i 0, eq_ix1 i⟩
  by_cases hall : ∀ j : Fin 16, Cert.Spec.above x th r (Cert.Spec.col p j)
  · rw [Cert.Spec.matchRows_of_all hall]
    exact (out_eq_one_iff x th p hp r).2 hall
  · rw [Cert.Spec.matchRows_of_not_all hall]
    exact eq_zero_of_ne_one fun h => hall ((out_eq_one_iff x th p hp r).1 h)

end AtIdeal

end Stages

/-! ## The two facts the certificate uses -/

/-- The reference runs to its end from any memory, and leaves its three arguments as they were. -/
theorem run_frame [Cert.ReferenceIdeal.Facts] (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run (Cert.ReferenceIdeal.defs (F := Ideal)) _ _).mono (fun _ h c => (h c).2) (run (F := Ideal) m g)

/-- Where the pattern's entries are feature numbers, the reference's result is the specification's match bits of its
    arguments (and the arguments are left as they were). -/
theorem run_matchRows [Cert.ReferenceIdeal.Facts] (m : (ℓ : Loc Cert.ReferenceIdeal.nD Cert.ReferenceIdeal.τ Cert.ReferenceIdeal.sig) → Buf (Elt Ideal) ℓ)
    (g : Dev Cert.ReferenceIdeal.nD → PrngReg)
    (hp : ∀ c : Dev Cert.ReferenceIdeal.nD, Cert.Spec.InRange (m ((c.tc : Thread Cert.ReferenceIdeal.nD Cert.ReferenceIdeal.τ).loc Cert.ReferenceIdeal.main_arg2))) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v4) = Cert.Spec.matchRows (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run (Cert.ReferenceIdeal.defs (F := Ideal)) _ _).mono
    (fun _ h c => ⟨(h c).1.trans (out_eq_matchRows _ _ _ (hp c)), (h c).2⟩) (run (F := Ideal) m g)

end Cert.ReferenceIdeal.RefValue

end
-- ==== Proof.PreRange.lean ====
/-
  The precondition, read: its two integer conjuncts say that every entry of the pattern is a feature number.
-/
import proofs.«422462_j31121333027528_3_alg».proof.Pre_finite_inputs
import proofs.«422462_j31121333027528_3_alg».proof.Proof.Spec
import Idealize.ShloMosaic.Lib.ReduceAll
import Idealize.ShloMosaic.Lib.StableHlo.Predicate

noncomputable section

namespace Cert.PreRange

open Idealize.ShloMosaic Idealize.ShloMosaic.ValueIdx

variable {F : FTy → Type} [FloatOps F] [hP : Cert.Pre_finite_inputs.Facts]

/-- Where the printed precondition is all ones, every entry of the pattern, read signed, lies in `[0, 64)`:
    the conjunction's last two conjuncts are "all entries ≥ 0" and "all entries < 64". -/
theorem inRange_of_pre (x : FVec F Cert.Pre_finite_inputs.S2000000x64 .f32) (th : FVec F Cert.Pre_finite_inputs.S64 .f32)
    (p : IVec Cert.Pre_finite_inputs.S16 32)
    (h : Cert.Pre_finite_inputs.fn (F := F) x th p = fun _ => 1#1) : Cert.Spec.InRange p := by
  -- The printed predicate is a conjunction of four bits; read it at its one index.
  have h0 := congrFun h ix0
  dsimp only [Cert.Pre_finite_inputs.fn, Cert.Pre_finite_inputs.fn_part1] at h0
  -- Split off the last two conjuncts: "all entries ≥ 0" and "all entries < 64".
  obtain ⟨h12, h15⟩ := IntOp.andi_eq_one.1 (show IntOp.andi _ _ = 1#1 from h0)
  obtain ⟨-, h11⟩ := IntOp.andi_eq_one.1 (show IntOp.andi _ _ = 1#1 from h12)
  intro j
  -- The result of a reduction over every axis has a single index.
  haveI : Subsingleton Cert.Pre_finite_inputs.S_.Idx := ⟨fun a b => funext fun d => d.elim0⟩
  -- A conjunction over all sixteen entries that holds, holds at entry `j`.
  have ha := Host.reduce_andi_all _ _ _ _ _ h11 (ix1 j)
  have hb := Host.reduce_andi_all _ _ _ _ _ h15 (ix1 j)
  -- At entry `j` the two compared arrays are the entry and the broadcast constant.
  have ha' : IntOp.cmpi .sge (p (ix1 j)) (0#32) = 1#1 := ha
  have hb' : IntOp.cmpi .slt (p (ix1 j)) (64#32) = 1#1 := hb
  rw [IntOp.cmpi_sge] at ha'
  rw [IntOp.cmpi_slt] at hb'
  have z0 : (0#32 : BitVec 32).toInt = 0 := by decide
  have z64 : (64#32 : BitVec 32).toInt = 64 := by decide
  rw [z0] at ha'
  rw [z64] at hb'
  exact ⟨ha', hb'⟩

end Cert.PreRange

end
-- ==== Proof.lean ====
/-
  The certificate. Both programs compute, for each of the 2,000,000 rows of a matrix with 64 features, whether every
  feature named by a pattern of 16 feature numbers is strictly above its threshold. The reference gathers the 16 named
  columns of the comparison bits and takes their conjunction. The kernel avoids the gather: it weighs each feature's
  comparison bit by the number of pattern entries naming that feature, sums the weights over the features, and tests the
  sum against 16; it also packs two consecutive rows into one row of 128 lanes (with the thresholds written twice and the
  weights in one half or the other), and interleaves the two halves' answers afterwards. Over the extended reals the
  weights are natural numbers summing to 16, so the weighted sum is 16 exactly when no named feature is missed.

  The kernel clamps a pattern entry into `[0, 64)` where the reference wraps a negative entry and drops one that is too
  large, so the two agree where every entry is a feature number: that is the precondition's integer conjunct.

  The pieces: the specification (Spec), the arithmetic law (Weighted), the precondition read (PreRange); the reference's
  run and value (RefValue); the kernel body's triple (KBody, BitsBody), the word-level frame from relational data
  (BitsFrame); at the ideal instance the proof data and the run (KData, KOblig), the host operations before the region
  (Prelude), the blocks as entries of the arrays (KReads), one packed row against the specification (KRow), from blocks to
  arrays (KBlocks), the host operations after the region (KTail), and their composition (KFinal).
-/
import proofs.«422462_j31121333027528_3_alg».proof.Defs
import proofs.«422462_j31121333027528_3_alg».proof.Proof.Gen.Kernel
import proofs.«422462_j31121333027528_3_alg».proof.Proof.Gen.KernelIdeal
import proofs.«422462_j31121333027528_3_alg».proof.Proof.Gen.ReferenceIdeal
import proofs.«422462_j31121333027528_3_alg».proof.Proof.Gen.Pre_finite_inputs
import proofs.«422462_j31121333027528_3_alg».proof.Proof.BitsFrame
import proofs.«422462_j31121333027528_3_alg».proof.Proof.KOblig
import proofs.«422462_j31121333027528_3_alg».proof.Proof.KFinal
import proofs.«422462_j31121333027528_3_alg».proof.Proof.RefValue
import proofs.«422462_j31121333027528_3_alg».proof.Proof.PreRange
import Idealize.ShloMosaic.Adequacy
import Idealize.ShloMosaic.Init

noncomputable section

namespace Cert.Proof

open Idealize.ShloMosaic Idealize.SL.Sem

/-- The word-level kernel runs to its end and leaves its arguments as they were. -/
theorem frame_kernel : Cert.frame_Kernel := fun m ρ _ => Cert.Kernel.BitsFrame.frame (F := Bits) m ρ

/-- So does its idealization. -/
theorem frame_kernelIdeal : Cert.frame_KernelIdeal := fun m ρ _ => Cert.KernelIdeal.Oblig.frame m ρ

/-- And the reference. -/
theorem frame_reference : Cert.frame_ReferenceIdeal := fun m ρ _ => Cert.ReferenceIdeal.RefValue.run_frame m ρ

/-- The ideal pass rewrote nothing: the idealized kernel is the kernel's own text read over the extended reals. -/
theorem preserves : Cert.preserves_Kernel_KernelIdeal := trivial

/-- From memories that agree on the arguments, both idealized programs end with the specification's match bits of the
    arguments as their result. -/
theorem algebraic : Cert.algebraic_KernelIdeal_ReferenceIdeal := by
  intro m ρ m' ρ' hpre hagree
  have hp : ∀ c : Dev Cert.KernelIdeal.nD, Cert.Spec.InRange (m ((c.tc : Thread Cert.KernelIdeal.nD Cert.KernelIdeal.τ).loc Cert.KernelIdeal.main_arg2)) :=
    fun c => Cert.PreRange.inRange_of_pre _ _ _ (hpre c)
  refine ⟨fun c => Cert.Spec.matchRows (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Oblig.run_main m ρ)
    · exact ((h c).2 Cert.KernelIdeal.main_v27 (Pipeline.mem_restRefs_of Cert.KernelIdeal.main_v27 (by decide) (by decide))).trans
        (Cert.KernelIdeal.Final.result_eq m c (hp c))
    · exact ((h c).2 Cert.KernelIdeal.main_arg0 (Pipeline.mem_restRefs_of Cert.KernelIdeal.main_arg0 (by decide) (by decide))).trans
        (Cert.KernelIdeal.Gen.W_main_arg0 m (Cert.KernelIdeal.Oblig.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Oblig.dats m) c)
    · exact ((h c).2 Cert.KernelIdeal.main_arg2 (Pipeline.mem_restRefs_of Cert.KernelIdeal.main_arg2 (by decide) (by decide))).trans
        (Cert.KernelIdeal.Gen.W_main_arg2 m (Cert.KernelIdeal.Oblig.dats m) c)
  · refine (θ_run Cert.ReferenceIdeal.defs _ _).mono (fun r h c => ?_)
      (Cert.ReferenceIdeal.RefValue.run_matchRows m' ρ' (fun c => by rw [(hagree c).2.2]; exact hp c))
    obtain ⟨h0, h1, h2, h3⟩ := h c
    refine ⟨?_, h1, h2, h3⟩
    rw [h0, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
